-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1048576x2 : Shape := ⟨3, ![16, 1048576, 2]⟩
abbrev S_ : Shape := ⟨0, ![]⟩

class Facts : Prop where
  bcast_S_S16x1048576x2 : S_.BroadcastsInDim S16x1048576x2 (![] : Fin 0 → Fin S16x1048576x2.rank)
  reducesTo_S16x1048576x2_S_d0_1_2 : S16x1048576x2.ReducesTo [0, 1, 2] S_
  h_S_ : 0 < S_.numel

variable [Facts]

def fn {F : FTy → Type} [FloatOps F] (main_arg0 : FVec F S16x1048576x2 .f32) : IVec S_ 1 :=
  let main_cst : FVec F S_ .f32 := constant S_ .f32 0x42FE0000#32
  let main_v0 : FVec F S16x1048576x2 .f32 := broadcastInDim S16x1048576x2 ![] bcast_S_S16x1048576x2 main_cst
  let main_v1 : FVec F S16x1048576x2 .f32 := mulf main_arg0 main_v0
  let main_v2 : IVec S16x1048576x2 32 := fptosi 32 main_v1
  let main_v3 : FVec F S16x1048576x2 .f32 := Host.absf main_arg0
  let main_cst_0 : FVec F S_ .f32 := constant S_ .f32 0x7F800000#32
  let main_v4 : FVec F S16x1048576x2 .f32 := broadcastInDim S16x1048576x2 ![] bcast_S_S16x1048576x2 main_cst_0
  let main_v5 : IVec S16x1048576x2 1 := cmpf .olt main_v3 main_v4
  let main_c : IVec S_ 1 := constantI S_ 1 1#1
  let main_v6 : IVec S_ 1 := (fun x v => Host.reduce IntOp.andi x v reducesTo_S16x1048576x2_S_d0_1_2 h_S_) main_v5 main_c
  let main_c_1 : IVec S_ 32 := constantI S_ 32 0#32
  let main_v7 : IVec S16x1048576x2 32 := broadcastInDim S16x1048576x2 ![] bcast_S_S16x1048576x2 main_c_1
  let main_v8 : IVec S16x1048576x2 1 := cmpi .sge main_v2 main_v7
  let main_c_2 : IVec S_ 32 := constantI S_ 32 128#32
  let main_v9 : IVec S16x1048576x2 32 := broadcastInDim S16x1048576x2 ![] bcast_S_S16x1048576x2 main_c_2
  let main_v10 : IVec S16x1048576x2 1 := cmpi .slt main_v2 main_v9
  let main_v11 : IVec S16x1048576x2 1 := andi main_v8 main_v10
  let main_c_3 : IVec S_ 1 := constantI S_ 1 1#1
  let main_v12 : IVec S_ 1 := (fun x v => Host.reduce IntOp.andi x v reducesTo_S16x1048576x2_S_d0_1_2 h_S_) main_v11 main_c_3
  let main_v13 : IVec S_ 1 := andi main_v6 main_v12
  main_v13
-- ==== Kernel.lean ====
abbrev S16x1048576x2 : Shape := ⟨3, ![16, 1048576, 2]⟩
abbrev S16x128x128 : Shape := ⟨3, ![16, 128, 128]⟩
abbrev S1x131072x2 : Shape := ⟨3, ![1, 131072, 2]⟩
abbrev S1x128x128 : Shape := ⟨3, ![1, 128, 128]⟩
abbrev S128x128 : Shape := ⟨2, ![128, 128]⟩
abbrev S4096x128 : Shape := ⟨2, ![4096, 128]⟩
abbrev S1x4096x2 : Shape := ⟨3, ![1, 4096, 2]⟩
abbrev S4096x2 : Shape := ⟨2, ![4096, 2]⟩
abbrev S4096x1 : Shape := ⟨2, ![4096, 1]⟩

abbrev nBuf : Space → Nat
  | .hbm => 3
  | .vmem => 7
  | .smem => 0
  | _ => 0

abbrev bufTy : (tb : Table) → Fin (tcTables nBuf tb) → BufTy
  | .hbm, ⟨0, _⟩ => ⟨S16x1048576x2, .f32⟩
  | .hbm, ⟨1, _⟩ => ⟨S16x1048576x2, .i32⟩
  | .hbm, ⟨2, _⟩ => ⟨S16x128x128, .i32⟩
  | .local _ .vmem, ⟨0, _⟩ => ⟨S1x131072x2, .f32⟩
  | .local _ .vmem, ⟨1, _⟩ => ⟨S1x131072x2, .f32⟩
  | .local _ .vmem, ⟨2, _⟩ => ⟨S1x131072x2, .i32⟩
  | .local _ .vmem, ⟨3, _⟩ => ⟨S1x131072x2, .i32⟩
  | .local _ .vmem, ⟨4, _⟩ => ⟨S1x128x128, .i32⟩
  | .local _ .vmem, ⟨5, _⟩ => ⟨S1x128x128, .i32⟩
  | .local _ .vmem, ⟨6, _⟩ => ⟨S128x128, .f32⟩
  | _, _ => ⟨S16x1048576x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 8], ![false, false]⟩

@[reducible] def k0_t1_loop : Scf.Loop 32 :=
  let c0_i32_1 : BitVec 32 := 0#32
  let c32_i32 : BitVec 32 := 32#32
  let v4 : BitVec 32 := Scalar.addi c0_i32_1 c32_i32
  let c1_i32 : BitVec 32 := 1#32
  ⟨c0_i32_1, v4, c1_i32⟩
def k0_mult1 (k0_t1 : Fin k0_t1_loop.trips) : BitVec 32 :=
  let c0_i32_1 : BitVec 32 := 0#32
  let c1_i32 : BitVec 32 := 1#32
  let arg6 : BitVec 32 := Scf.iv c0_i32_1 c1_i32 k0_t1
  let c4096_i32 : BitVec 32 := 4096#32
  let v8 : BitVec 32 := Scalar.muli arg6 c4096_i32
  v8
def k0_off1 (k0_t1 : Fin k0_t1_loop.trips) : Fin 3 → Nat :=
  let c0 : Index := 0#32
  let c0_i32_1 : BitVec 32 := 0#32
  let c1_i32 : BitVec 32 := 1#32
  let arg6 : BitVec 32 := Scf.iv c0_i32_1 c1_i32 k0_t1
  let c4096_i32 : BitVec 32 := 4096#32
  let v8 : BitVec 32 := Scalar.muli arg6 c4096_i32
  let v9 : BitVec 32 := v8
  let v10 : Index := Scalar.indexCast v9
  let c0_4 : Index := 0#32
  ![0, v10.toNat, 0]
def k0_cond2 (i : grid0.Coords) : BitVec 1 :=
  let arg1 : BitVec 32 := BitVec.ofNat 32 (i 1).val
  let c7_i32 : BitVec 32 := 7#32
  let v5 : BitVec 1 := Scalar.cmpi .eq arg1 c7_i32
  let v6 : BitVec 32 := Scalar.extui v5
  let c0_i32_3 : BitVec 32 := 0#32
  let v7 : BitVec 1 := Scalar.cmpi .ne v6 c0_i32_3
  v7

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x131072x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x131072x2 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S128x128_S128x128_0_0 : ∀ a, (![0, 0] : Fin 2 → Nat) a + S128x128.size a ≤ S128x128.size a
  h_S128x128 : 0 < S128x128.numel
  shapeCasts_S128x128_S128x128 : S128x128.ShapeCasts S128x128
  iota_S4096x128_d1_w32 : S4096x128.Iotas .tc 32 [1]
  h_S1x4096x2 : 0 < S1x4096x2.numel
  shapeCasts_S1x4096x2_S4096x2 : S1x4096x2.ShapeCasts S4096x2
  shapeCasts_S4096x2_S1x4096x2 : S4096x2.ShapeCasts S1x4096x2
  slices_S4096x2_o0_0_S4096x1 : S4096x2.Slices ![0, 0] S4096x1
  slices_S4096x2_o0_1_S4096x1 : S4096x2.Slices ![0, 1] S4096x1
  broadcasts_S4096x1_S4096x128 : S4096x1.Broadcasts S4096x128
  natLt_1_32 : 1 < 32
  bitsLt_bf16_f32 : FTy.bits .bf16 < FTy.bits .f32
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  shapeCasts_S128x128_S1x128x128 : S128x128.ShapeCasts S1x128x128
  dot_S4096x128_S4096x128_S128x128_0_0_1_1_n_n_wf : DotDims.WF S4096x128 S4096x128 S128x128 [0] [0] [1] [1] [] []
  hrank0 : 0 < grid0.rank
  k0_t1_ok : k0_t1_loop.OK
  k0_mult1_dvd : ∀ k0_t1 : Fin k0_t1_loop.trips, 4096 ∣ (k0_mult1 k0_t1).toNat
  k0_off1_inb : ∀ k0_t1 : Fin k0_t1_loop.trips, ∀ a, (k0_off1 k0_t1) a + S1x4096x2.size a ≤ S1x131072x2.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x131072x2.size a ≤ S16x1048576x2.size a
  hwx0_0 : ∀ i : grid0.Coords, EltTy.bits .f32 = 32 ∨ (Rect.block (s := S16x1048576x2) S1x131072x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x131072x2.size a ≤ S16x1048576x2.size a
  hwx0_1 : ∀ i : grid0.Coords, EltTy.bits .i32 = 32 ∨ (Rect.block (s := S16x1048576x2) S1x131072x2.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x128.size a ≤ S16x128x128.size a
  hwx0_2 : ∀ i : grid0.Coords, EltTy.bits .i32 = 32 ∨ (Rect.block (s := S16x128x128) S1x128x128.size (cc0_transform_2 i) (hinb0_2 i)).WholeWords (EltTy.packing .i32)

variable [Facts₀]

def dot_S4096x128_S4096x128_S128x128_0_0_1_1_n_n : DotDims S4096x128 S4096x128 S128x128 where
  lhsContracting := [0]
  rhsContracting := [0]
  lhsNonContracting := [1]
  rhsNonContracting := [1]
  lhsBatch := []
  rhsBatch := []
  wf := dot_S4096x128_S4096x128_S128x128_0_0_1_1_n_n_wf

abbrev win0_0 : Pipeline.Window sig grid0 :=
  Pipeline.Window.ofSpec (Memref.whole main_arg0) S1x131072x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S1x131072x2.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1x128x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16x1048576x2 : Shape := ⟨3, ![16, 1048576, 2]⟩
abbrev S_ : Shape := ⟨0, ![]⟩
abbrev S16x1048576x1 : Shape := ⟨3, ![16, 1048576, 1]⟩
abbrev S16x1048576 : Shape := ⟨2, ![16, 1048576]⟩
abbrev S16777216 : Shape := ⟨1, ![16777216]⟩
abbrev S16 : Shape := ⟨1, ![16]⟩
abbrev S262144 : Shape := ⟨1, ![262144]⟩
abbrev S16777216x1 : Shape := ⟨2, ![16777216, 1]⟩
abbrev S16x128x128 : Shape := ⟨3, ![16, 128, 128]⟩

abbrev nBuf : Space → Nat
  | .hbm => 36
  | .vmem => 0
  | .smem => 0
  | _ => 0

abbrev bufTy : (tb : Table) → Fin (tcTables nBuf tb) → BufTy
  | .hbm, ⟨0, _⟩ => ⟨S16x1048576x2, .f32⟩
  | .hbm, ⟨1, _⟩ => ⟨S_, .f32⟩
  | .hbm, ⟨2, _⟩ => ⟨S16x1048576x2, .f32⟩
  | .hbm, ⟨3, _⟩ => ⟨S16x1048576x2, .f32⟩
  | .hbm, ⟨4, _⟩ => ⟨S16x1048576x2, .i32⟩
  | .hbm, ⟨5, _⟩ => ⟨S16x1048576x1, .i32⟩
  | .hbm, ⟨6, _⟩ => ⟨S16x1048576, .i32⟩
  | .hbm, ⟨7, _⟩ => ⟨S16777216, .i32⟩
  | .hbm, ⟨8, _⟩ => ⟨S16x1048576x1, .i32⟩
  | .hbm, ⟨9, _⟩ => ⟨S16x1048576, .i32⟩
  | .hbm, ⟨10, _⟩ => ⟨S16777216, .i32⟩
  | .hbm, ⟨11, _⟩ => ⟨S16, .i32⟩
  | .hbm, ⟨12, _⟩ => ⟨S16x1048576, .i32⟩
  | .hbm, ⟨13, _⟩ => ⟨S16777216, .i32⟩
  | .hbm, ⟨14, _⟩ => ⟨S_, .i32⟩
  | .hbm, ⟨15, _⟩ => ⟨S16777216, .i32⟩
  | .hbm, ⟨16, _⟩ => ⟨S16777216, .i32⟩
  | .hbm, ⟨17, _⟩ => ⟨S16777216, .i32⟩
  | .hbm, ⟨18, _⟩ => ⟨S_, .i32⟩
  | .hbm, ⟨19, _⟩ => ⟨S16777216, .i32⟩
  | .hbm, ⟨20, _⟩ => ⟨S16777216, .i32⟩
  | .hbm, ⟨21, _⟩ => ⟨S16777216, .i32⟩
  | .hbm, ⟨22, _⟩ => ⟨S_, .i32⟩
  | .hbm, ⟨23, _⟩ => ⟨S262144, .i32⟩
  | .hbm, ⟨24, _⟩ => ⟨S_, .i32⟩
  | .hbm, ⟨25, _⟩ => ⟨S16777216, .i32⟩
  | .hbm, ⟨26, _⟩ => ⟨S16777216, .i1⟩
  | .hbm, ⟨27, _⟩ => ⟨S_, .i32⟩
  | .hbm, ⟨28, _⟩ => ⟨S16777216, .i32⟩
  | .hbm, ⟨29, _⟩ => ⟨S16777216, .i32⟩
  | .hbm, ⟨30, _⟩ => ⟨S16777216, .i32⟩
  | .hbm, ⟨31, _⟩ => ⟨S16777216x1, .i32⟩
  | .hbm, ⟨32, _⟩ => ⟨S_, .i32⟩
  | .hbm, ⟨33, _⟩ => ⟨S16777216, .i32⟩
  | .hbm, ⟨34, _⟩ => ⟨S262144, .i32⟩
  | .hbm, ⟨35, _⟩ => ⟨S16x128x128, .i32⟩
  | _, _ => ⟨S16x1048576x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_c : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_c_0 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_c_1 : Ref sig .tc := ⟨.hbm, 22, rfl⟩
abbrev main_v18 : Ref sig .tc := ⟨.hbm, 23, rfl⟩
abbrev main_c_2 : Ref sig .tc := ⟨.hbm, 24, rfl⟩
abbrev main_v19 : Ref sig .tc := ⟨.hbm, 25, rfl⟩
abbrev main_v20 : Ref sig .tc := ⟨.hbm, 26, rfl⟩
abbrev main_c_3 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_c_4 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩

abbrev nD : Nat := 1
abbrev τ : Topo := Topo.v7x

variable {F : FTy → Type} [FloatOps F]

class Facts₀ : Prop where
  bcast_S_S16x1048576x2 : S_.BroadcastsInDim S16x1048576x2 (![] : Fin 0 → Fin S16x1048576x2.rank)
  slices_S16x1048576x2_S16x1048576x1_0_0_0 : S16x1048576x2.Slices ![0, 0, 0] S16x1048576x1
  shapeCasts_S16x1048576x1_S16x1048576 : S16x1048576x1.ShapeCasts S16x1048576
  shapeCasts_S16x1048576_S16777216 : S16x1048576.ShapeCasts S16777216
  slices_S16x1048576x2_S16x1048576x1_0_0_1 : S16x1048576x2.Slices ![0, 0, 1] S16x1048576x1
  bcast_S16_S16x1048576_0 : S16.BroadcastsInDim S16x1048576 (![0] : Fin 1 → Fin S16x1048576.rank)
  bcast_S_S16777216 : S_.BroadcastsInDim S16777216 (![] : Fin 0 → Fin S16777216.rank)
  bcast_S_S262144 : S_.BroadcastsInDim S262144 (![] : Fin 0 → Fin S262144.rank)
  bcast_S16777216_S16777216x1_0 : S16777216.BroadcastsInDim S16777216x1 (![0] : Fin 1 → Fin S16777216x1.rank)
  shapeCasts_S262144_S16x128x128 : S262144.ShapeCasts S16x128x128
  scatter_S262144_S16777216x1_S16777216_n_0_0_1_wf : ScatterDims.WF S262144 S16777216x1 S16777216 [] [0] [0] 1

variable [Facts₀]

def scatter_S262144_S16777216x1_S16777216_n_0_0_1 : ScatterDims S262144 S16777216x1 S16777216 where
  updateWindowDims := []
  insertedWindowDims := [0]
  scatterDimsToOperandDims := [0]
  indexVectorDim := 1
  wf := scatter_S262144_S16777216x1_S16777216_n_0_0_1_wf

class Facts : Prop extends Facts₀ where

variable [Facts]
-- ==== Proof.TripK.lean ====
/-
  One trip of the chunk loop, read as values: trip `k` stores into the quantised block the quantisation of chunk `k`
  of the input block, at the chunk's own rows, and stores into the accumulator (whole) what it held plus the chunk's
  product of one-hot matrices. Neither piece depends on what the quantised block held before, so the pieces of the
  trips before any `n` do not depend on the contents the quantised block had when the loop was entered.
-/
import proofs.«100373_j446676598908_1_alg».proof.Proof.Gen.Kernel.Loops

set_option maxRecDepth 16384

noncomputable section

namespace Cert.Kernel.TripP

open Idealize.ShloMosaic Idealize.ShloMosaic.TcCoe Idealize.ShloMosaic.Tactic
open Idealize.SL Idealize.SL.RA Idealize.SL.BI
open Idealize.SL.Sem
open Cert.Kernel Cert.Kernel.Gen

variable {F : FTy → Type} [FloatOps F]

/-- The rows of the block that trip `k` reads and writes: chunk `k`. -/
abbrev chunkRect (k : Fin k0_t1_loop.trips) : Rect S1x131072x2 :=
  Rect.unit (s := S1x131072x2) (k0_off1 k) S1x4096x2.size (k0_off1_inb k)

/-- The whole accumulator. -/
abbrev accRect : Rect S128x128 :=
  Rect.unit (s := S128x128) ![0, 0] S128x128.size inb_S128x128_S128x128_0_0

/-- Trip `k`'s two pieces: the chunk quantised, at the chunk's rows; the accumulator plus the chunk's product, whole. -/
theorem tripL_eq (𝒱 : Variants) (c : Dev nD) (bd : Option 𝒱.V) (i : grid0.Coords) (arg2 : Memref sig .tc .vmem S1x131072x2 .f32) (harg2 : arg2.IsWhole) (arg3 : Memref sig .tc .vmem S1x131072x2 .i32) (harg3 : arg3.IsWhole) (arg4 : Memref sig .tc .vmem S1x128x128 .i32) (harg4 : arg4.IsWhole) (arg5 : Memref sig .tc .vmem S128x128 .f32) (harg5 : arg5.IsWhole) (X_arg2 : BufTy.Contents (Elt F) arg2.view.ty) (k : Fin k0_t1_loop.trips) (f_arg3 : BufTy.Contents (Elt F) arg3.view.ty) (f_arg5 : BufTy.Contents (Elt F) arg5.view.ty) :
    tripL_k0_t1 (F := F) 𝒱 c bd i arg2 harg2 arg3 harg3 arg4 harg4 arg5 harg5 X_arg2 k f_arg3 f_arg5
      = ([⟨chunkRect k, k0_pay3 (View.readAt (Elt F) arg2.view (chunkRect k).toLoadRect X_arg2)⟩],
         [⟨accRect, k0_pay4 (View.readAt (Elt F) arg2.view (chunkRect k).toLoadRect X_arg2)
            (View.readAt (Elt F) arg5.view accRect.toLoadRect f_arg5)⟩]) := by
  unfold tripL_k0_t1 trip_k0_t1
  rfl

/-- The piece a trip stores into the quantised block. -/
theorem trip_fst_eq (𝒱 : Variants) (c : Dev nD) (bd : Option 𝒱.V) (i : grid0.Coords) (arg2 : Memref sig .tc .vmem S1x131072x2 .f32) (harg2 : arg2.IsWhole) (arg3 : Memref sig .tc .vmem S1x131072x2 .i32) (harg3 : arg3.IsWhole) (arg4 : Memref sig .tc .vmem S1x128x128 .i32) (harg4 : arg4.IsWhole) (arg5 : Memref sig .tc .vmem S128x128 .f32) (harg5 : arg5.IsWhole) (X_arg2 : BufTy.Contents (Elt F) arg2.view.ty) (k : Fin k0_t1_loop.trips) (f_arg3 : BufTy.Contents (Elt F) arg3.view.ty) (f_arg5 : BufTy.Contents (Elt F) arg5.view.ty) :
    (trip_k0_t1 (F := F) 𝒱 c bd i arg2 harg2 arg3 harg3 arg4 harg4 arg5 harg5 X_arg2 k).1 f_arg3 f_arg5
      = [⟨chunkRect k, k0_pay3 (View.readAt (Elt F) arg2.view (chunkRect k).toLoadRect X_arg2)⟩] :=
  congrArg Prod.fst (tripL_eq 𝒱 c bd i arg2 harg2 arg3 harg3 arg4 harg4 arg5 harg5 X_arg2 k f_arg3 f_arg5)

/-- The piece a trip stores into the accumulator. -/
theorem trip_snd_eq (𝒱 : Variants) (c : Dev nD) (bd : Option 𝒱.V) (i : grid0.Coords) (arg2 : Memref sig .tc .vmem S1x131072x2 .f32) (harg2 : arg2.IsWhole) (arg3 : Memref sig .tc .vmem S1x131072x2 .i32) (harg3 : arg3.IsWhole) (arg4 : Memref sig .tc .vmem S1x128x128 .i32) (harg4 : arg4.IsWhole) (arg5 : Memref sig .tc .vmem S128x128 .f32) (harg5 : arg5.IsWhole) (X_arg2 : BufTy.Contents (Elt F) arg2.view.ty) (k : Fin k0_t1_loop.trips) (f_arg3 : BufTy.Contents (Elt F) arg3.view.ty) (f_arg5 : BufTy.Contents (Elt F) arg5.view.ty) :
    (trip_k0_t1 (F := F) 𝒱 c bd i arg2 harg2 arg3 harg3 arg4 harg4 arg5 harg5 X_arg2 k).2.1 f_arg3 f_arg5
      = [⟨accRect, k0_pay4 (View.readAt (Elt F) arg2.view (chunkRect k).toLoadRect X_arg2)
            (View.readAt (Elt F) arg5.view accRect.toLoadRect f_arg5)⟩] :=
  congrArg Prod.snd (tripL_eq 𝒱 c bd i arg2 harg2 arg3 harg3 arg4 harg4 arg5 harg5 X_arg2 k f_arg3 f_arg5)

/-- The pieces of the trips before `n` do not depend on what the quantised block held at loop entry. -/
theorem pb_entry_irrel {𝒱 : Variants} {c : Dev nD} {bd : Option 𝒱.V} {i : grid0.Coords} {arg2 : Memref sig .tc .vmem S1x131072x2 .f32} {harg2 : arg2.IsWhole} {arg3 : Memref sig .tc .vmem S1x131072x2 .i32} {harg3 : arg3.IsWhole} {arg4 : Memref sig .tc .vmem S1x128x128 .i32} {harg4 : arg4.IsWhole} {arg5 : Memref sig .tc .vmem S128x128 .f32} {harg5 : arg5.IsWhole} {X_arg2 : BufTy.Contents (Elt F) arg2.view.ty} (G3' : BufTy.Contents (Elt F) arg3.view.ty) {G_arg3 : BufTy.Contents (Elt F) arg3.view.ty} {G_arg5 : BufTy.Contents (Elt F) arg5.view.ty} {n : ℕ} :
    pb_k0_t1 (F := F) 𝒱 c bd i arg2 harg2 arg3 harg3 arg4 harg4 arg5 harg5 X_arg2 G_arg3 G_arg5 n = pb_k0_t1 (F := F) 𝒱 c bd i arg2 harg2 arg3 harg3 arg4 harg4 arg5 harg5 X_arg2 G3' G_arg5 n := by
  induction n with
  | zero => rfl
  | succ n ih =>
    rw [pb_k0_t1.eq_2, pb_k0_t1.eq_2]
    unfold pb_k0_t1Step
    by_cases h : n < k0_t1_loop.trips
    · rw [dif_pos h, dif_pos h]
      simp only [trip_fst_eq, trip_snd_eq, ih]
    · rw [dif_neg h, dif_neg h]; exact ih

end Cert.Kernel.TripP

end
-- ==== Proof.TripI.lean ====
/-
  One trip of the chunk loop, read as values: trip `k` stores into the quantised block the quantisation of chunk `k`
  of the input block, at the chunk's own rows, and stores into the accumulator (whole) what it held plus the chunk's
  product of one-hot matrices. Neither piece depends on what the quantised block held before, so the pieces of the
  trips before any `n` do not depend on the contents the quantised block had when the loop was entered.
-/
import proofs.«100373_j446676598908_1_alg».proof.Proof.Gen.KernelIdeal.Loops

set_option maxRecDepth 16384

noncomputable section

namespace Cert.KernelIdeal.TripP

open Idealize.ShloMosaic Idealize.ShloMosaic.TcCoe Idealize.ShloMosaic.Tactic
open Idealize.SL Idealize.SL.RA Idealize.SL.BI
open Idealize.SL.Sem
open Cert.KernelIdeal Cert.KernelIdeal.Gen

variable {F : FTy → Type} [FloatOps F]

/-- The rows of the block that trip `k` reads and writes: chunk `k`. -/
abbrev chunkRect (k : Fin k0_t1_loop.trips) : Rect S1x131072x2 :=
  Rect.unit (s := S1x131072x2) (k0_off1 k) S1x4096x2.size (k0_off1_inb k)

/-- The whole accumulator. -/
abbrev accRect : Rect S128x128 :=
  Rect.unit (s := S128x128) ![0, 0] S128x128.size inb_S128x128_S128x128_0_0

/-- Trip `k`'s two pieces: the chunk quantised, at the chunk's rows; the accumulator plus the chunk's product, whole. -/
theorem tripL_eq (𝒱 : Variants) (c : Dev nD) (bd : Option 𝒱.V) (i : grid0.Coords) (arg2 : Memref sig .tc .vmem S1x131072x2 .f32) (harg2 : arg2.IsWhole) (arg3 : Memref sig .tc .vmem S1x131072x2 .i32) (harg3 : arg3.IsWhole) (arg4 : Memref sig .tc .vmem S1x128x128 .i32) (harg4 : arg4.IsWhole) (arg5 : Memref sig .tc .vmem S128x128 .f32) (harg5 : arg5.IsWhole) (X_arg2 : BufTy.Contents (Elt F) arg2.view.ty) (k : Fin k0_t1_loop.trips) (f_arg3 : BufTy.Contents (Elt F) arg3.view.ty) (f_arg5 : BufTy.Contents (Elt F) arg5.view.ty) :
    tripL_k0_t1 (F := F) 𝒱 c bd i arg2 harg2 arg3 harg3 arg4 harg4 arg5 harg5 X_arg2 k f_arg3 f_arg5
      = ([⟨chunkRect k, k0_pay3 (View.readAt (Elt F) arg2.view (chunkRect k).toLoadRect X_arg2)⟩],
         [⟨accRect, k0_pay4 (View.readAt (Elt F) arg2.view (chunkRect k).toLoadRect X_arg2)
            (View.readAt (Elt F) arg5.view accRect.toLoadRect f_arg5)⟩]) := by
  unfold tripL_k0_t1 trip_k0_t1
  rfl

/-- The piece a trip stores into the quantised block. -/
theorem trip_fst_eq (𝒱 : Variants) (c : Dev nD) (bd : Option 𝒱.V) (i : grid0.Coords) (arg2 : Memref sig .tc .vmem S1x131072x2 .f32) (harg2 : arg2.IsWhole) (arg3 : Memref sig .tc .vmem S1x131072x2 .i32) (harg3 : arg3.IsWhole) (arg4 : Memref sig .tc .vmem S1x128x128 .i32) (harg4 : arg4.IsWhole) (arg5 : Memref sig .tc .vmem S128x128 .f32) (harg5 : arg5.IsWhole) (X_arg2 : BufTy.Contents (Elt F) arg2.view.ty) (k : Fin k0_t1_loop.trips) (f_arg3 : BufTy.Contents (Elt F) arg3.view.ty) (f_arg5 : BufTy.Contents (Elt F) arg5.view.ty) :
    (trip_k0_t1 (F := F) 𝒱 c bd i arg2 harg2 arg3 harg3 arg4 harg4 arg5 harg5 X_arg2 k).1 f_arg3 f_arg5
      = [⟨chunkRect k, k0_pay3 (View.readAt (Elt F) arg2.view (chunkRect k).toLoadRect X_arg2)⟩] :=
  congrArg Prod.fst (tripL_eq 𝒱 c bd i arg2 harg2 arg3 harg3 arg4 harg4 arg5 harg5 X_arg2 k f_arg3 f_arg5)

/-- The piece a trip stores into the accumulator. -/
theorem trip_snd_eq (𝒱 : Variants) (c : Dev nD) (bd : Option 𝒱.V) (i : grid0.Coords) (arg2 : Memref sig .tc .vmem S1x131072x2 .f32) (harg2 : arg2.IsWhole) (arg3 : Memref sig .tc .vmem S1x131072x2 .i32) (harg3 : arg3.IsWhole) (arg4 : Memref sig .tc .vmem S1x128x128 .i32) (harg4 : arg4.IsWhole) (arg5 : Memref sig .tc .vmem S128x128 .f32) (harg5 : arg5.IsWhole) (X_arg2 : BufTy.Contents (Elt F) arg2.view.ty) (k : Fin k0_t1_loop.trips) (f_arg3 : BufTy.Contents (Elt F) arg3.view.ty) (f_arg5 : BufTy.Contents (Elt F) arg5.view.ty) :
    (trip_k0_t1 (F := F) 𝒱 c bd i arg2 harg2 arg3 harg3 arg4 harg4 arg5 harg5 X_arg2 k).2.1 f_arg3 f_arg5
      = [⟨accRect, k0_pay4 (View.readAt (Elt F) arg2.view (chunkRect k).toLoadRect X_arg2)
            (View.readAt (Elt F) arg5.view accRect.toLoadRect f_arg5)⟩] :=
  congrArg Prod.snd (tripL_eq 𝒱 c bd i arg2 harg2 arg3 harg3 arg4 harg4 arg5 harg5 X_arg2 k f_arg3 f_arg5)

/-- The pieces of the trips before `n` do not depend on what the quantised block held at loop entry. -/
theorem pb_entry_irrel {𝒱 : Variants} {c : Dev nD} {bd : Option 𝒱.V} {i : grid0.Coords} {arg2 : Memref sig .tc .vmem S1x131072x2 .f32} {harg2 : arg2.IsWhole} {arg3 : Memref sig .tc .vmem S1x131072x2 .i32} {harg3 : arg3.IsWhole} {arg4 : Memref sig .tc .vmem S1x128x128 .i32} {harg4 : arg4.IsWhole} {arg5 : Memref sig .tc .vmem S128x128 .f32} {harg5 : arg5.IsWhole} {X_arg2 : BufTy.Contents (Elt F) arg2.view.ty} (G3' : BufTy.Contents (Elt F) arg3.view.ty) {G_arg3 : BufTy.Contents (Elt F) arg3.view.ty} {G_arg5 : BufTy.Contents (Elt F) arg5.view.ty} {n : ℕ} :
    pb_k0_t1 (F := F) 𝒱 c bd i arg2 harg2 arg3 harg3 arg4 harg4 arg5 harg5 X_arg2 G_arg3 G_arg5 n = pb_k0_t1 (F := F) 𝒱 c bd i arg2 harg2 arg3 harg3 arg4 harg4 arg5 harg5 X_arg2 G3' G_arg5 n := by
  induction n with
  | zero => rfl
  | succ n ih =>
    rw [pb_k0_t1.eq_2, pb_k0_t1.eq_2]
    unfold pb_k0_t1Step
    by_cases h : n < k0_t1_loop.trips
    · rw [dif_pos h, dif_pos h]
      simp only [trip_fst_eq, trip_snd_eq, ih]
    · rw [dif_neg h, dif_neg h]; exact ih

end Cert.KernelIdeal.TripP

end
-- ==== Proof.LoopVal.lean ====
/-
  What one run of the body leaves, as values. The chunk loop's trips, in order, each store the quantisation of their own
  chunk of the input block and add their chunk's product into the accumulator; so after the loop the quantised block
  is, entry by entry, one function of the input block (when each chunk's payload is that function on the chunk), and
  the accumulator is its contents at loop entry with the chunks' products added one after the other (`accAfter`).
  The three cases of the body differ in what the accumulator holds at loop entry (the reset value at a batch's first
  block, what the block before left otherwise) and in whether the histogram block is written (at a batch's last block:
  the accumulator converted).
-/
import proofs.«100373_j446676598908_1_alg».proof.Proof.PatchI.Frame
import proofs.«100373_j446676598908_1_alg».proof.Proof.TripI
import Idealize.ShloMosaic.Lib.Pipeline.Value
import Idealize.ShloMosaic.Lib.WholeRead

set_option maxRecDepth 16384

noncomputable section

namespace Cert.KernelIdeal.LoopV

open Idealize.ShloMosaic Idealize.ShloMosaic.TcCoe Idealize.ShloMosaic.Tactic
open Idealize.SL Idealize.SL.RA Idealize.SL.BI
open Idealize.SL.Sem
open Cert.KernelIdeal Cert.KernelIdeal.Gen Cert.KernelIdeal.TripP

variable {F : FTy → Type} [FloatOps F]

/-- Chunk `k` of an input block: its rows `4096·k …`. -/
def chunk (x0 : Vec F S1x131072x2 .f32) (k : Fin k0_t1_loop.trips) : Vec F S1x4096x2 .f32 :=
  View.ld x0 (chunkRect k)

/-- The accumulator after the first `n` trips, from its contents `acc0` at loop entry. -/
def accAfter (x0 : Vec F S1x131072x2 .f32) (acc0 : Vec F S128x128 .f32) : ℕ → Vec F S128x128 .f32
  | 0 => acc0
  | n + 1 => if h : n < k0_t1_loop.trips then k0_pay4 (chunk x0 ⟨n, h⟩) (accAfter x0 acc0 n) else accAfter x0 acc0 n

theorem accAfter_succ (x0 : Vec F S1x131072x2 .f32) (acc0 : Vec F S128x128 .f32) (k : Fin k0_t1_loop.trips) :
    accAfter x0 acc0 (k.val + 1) = k0_pay4 (chunk x0 k) (accAfter x0 acc0 k.val) := by
  rw [accAfter, dif_pos k.isLt]

/-- A load of chunk `k` from a whole buffer holding `x0`. -/
theorem readAt_chunk (arg2 : Memref sig .tc .vmem S1x131072x2 .f32) (harg2 : arg2.IsWhole) (x0 : Vec F S1x131072x2 .f32)
    (k : Fin k0_t1_loop.trips) :
    View.readAt (Elt F) arg2.view (chunkRect k).toLoadRect (harg2.unread x0) = chunk x0 k :=
  funext fun x => Memref.IsWhole.readAt_unread harg2 x0 (chunkRect k).toLoadRect x

/-- A load of the whole accumulator reads its contents. -/
theorem readAt_acc (arg5 : Memref sig .tc .vmem S128x128 .f32) (f : BufTy.Contents (Elt F) arg5.view.ty) :
    View.readAt (Elt F) arg5.view accRect.toLoadRect f = arg5.view.read (Elt F) f := by
  rw [show View.readAt (Elt F) arg5.view accRect.toLoadRect f = View.ld (arg5.view.read (Elt F) f) accRect from rfl]
  exact View.ld_unit_zero (by funext a; fin_cases a <;> rfl) _ _

/-- A store of the whole accumulator, last, leaves its payload. -/
theorem read_writes_acc (arg5 : Memref sig .tc .vmem S128x128 .f32) (f : BufTy.Contents (Elt F) arg5.view.ty)
    (w : S128x128.Idx → Elt F .f32) (L : List (View.Piece (Elt F) S128x128 .f32)) :
    arg5.view.read (Elt F) (arg5.view.writes (Elt F) f ((⟨accRect, w⟩ : View.Piece (Elt F) S128x128 .f32) :: L)) = w := by
  rw [View.read_writes_eq_canon _ _ _ (fun y => ⟨_, List.mem_cons_self, View.mem_set_unit_zero (by funext a; fin_cases a <;> rfl) inb_S128x128_S128x128_0_0 y⟩)]
  exact View.canon_cons_unit_zero (by funext a; fin_cases a <;> rfl) _ _ _

/-- THE ACCUMULATOR THROUGH THE LOOP: with the pieces of the first `n` trips written over contents `G5`, the accumulator
    reads `accAfter` from what `G5` reads. -/
theorem read_acc_pb (c : Dev nD) (i : grid0.Coords) (arg2 : Memref sig .tc .vmem S1x131072x2 .f32) (harg2 : arg2.IsWhole) (arg3 : Memref sig .tc .vmem S1x131072x2 .i32) (harg3 : arg3.IsWhole) (arg4 : Memref sig .tc .vmem S1x128x128 .i32) (harg4 : arg4.IsWhole) (arg5 : Memref sig .tc .vmem S128x128 .f32) (harg5 : arg5.IsWhole) (x0 : Vec F S1x131072x2 .f32)
    (G3 : BufTy.Contents (Elt F) arg3.view.ty) (G5 : BufTy.Contents (Elt F) arg5.view.ty) (n : ℕ) (hn : n ≤ k0_t1_loop.trips) :
    arg5.view.read (Elt F) (arg5.view.writes (Elt F) G5 (pb_k0_t1 (F := F) Variants.none c none i arg2 harg2 arg3 harg3 arg4 harg4 arg5 harg5 (harg2.unread x0) G3 G5 n).2)
      = accAfter x0 (arg5.view.read (Elt F) G5) n := by
  induction n with
  | zero => rfl
  | succ n ih =>
    have hlt : n < k0_t1_loop.trips := hn
    have e := pb_k0_t1_succ (F := F) Variants.none c none i arg2 harg2 arg3 harg3 arg4 harg4 arg5 harg5 (harg2.unread x0) G3 G5 ⟨n, hlt⟩
    rw [e]
    dsimp only
    rw [trip_snd_eq, List.singleton_append, read_writes_acc, readAt_chunk, readAt_acc, ih (Nat.le_of_lt hlt)]
    exact (accAfter_succ x0 _ ⟨n, hlt⟩).symm

/-- THE QUANTISED BLOCK THROUGH THE LOOP: every piece of the first `n` trips is, on its rectangle, one function `G` of the
    block index, when each chunk's payload is. -/
theorem pieces_pb (c : Dev nD) (i : grid0.Coords) (arg2 : Memref sig .tc .vmem S1x131072x2 .f32) (harg2 : arg2.IsWhole) (arg3 : Memref sig .tc .vmem S1x131072x2 .i32) (harg3 : arg3.IsWhole) (arg4 : Memref sig .tc .vmem S1x128x128 .i32) (harg4 : arg4.IsWhole) (arg5 : Memref sig .tc .vmem S128x128 .f32) (harg5 : arg5.IsWhole) (x0 : Vec F S1x131072x2 .f32)
    (G3 : BufTy.Contents (Elt F) arg3.view.ty) (G5 : BufTy.Contents (Elt F) arg5.view.ty)
    (G : S1x131072x2.Idx → Elt F .i32)
    (hG : ∀ (k : Fin k0_t1_loop.trips) (x : (chunkRect k).shape.Idx), k0_pay3 (chunk x0 k) x = G ((chunkRect k).emb x))
    (n : ℕ) (hn : n ≤ k0_t1_loop.trips) :
    ∀ p ∈ (pb_k0_t1 (F := F) Variants.none c none i arg2 harg2 arg3 harg3 arg4 harg4 arg5 harg5 (harg2.unread x0) G3 G5 n).1, ∀ x : p.1.shape.Idx, p.2 x = G (p.1.emb x) := by
  induction n with
  | zero => intro p hp; exact absurd hp List.not_mem_nil
  | succ n ih =>
    have hlt : n < k0_t1_loop.trips := hn
    have e := pb_k0_t1_succ (F := F) Variants.none c none i arg2 harg2 arg3 harg3 arg4 harg4 arg5 harg5 (harg2.unread x0) G3 G5 ⟨n, hlt⟩
    rw [e]
    dsimp only
    rw [trip_fst_eq, List.singleton_append]
    intro p hp
    rcases List.mem_cons.mp hp with rfl | hp'
    · intro x
      show k0_pay3 (View.readAt (Elt F) arg2.view (chunkRect ⟨n, hlt⟩).toLoadRect (harg2.unread x0)) x = _
      rw [readAt_chunk]
      exact hG ⟨n, hlt⟩ x
    · exact ih (Nat.le_of_lt hlt) p hp'

/-! ## The three cases of the body -/

/-- A batch's later blocks: the accumulator enters the loop with what the block before left. -/
theorem sout_B (c : Dev nD) (i : grid0.Coords) (arg2 : Memref sig .tc .vmem S1x131072x2 .f32) (harg2 : arg2.IsWhole) (arg3 : Memref sig .tc .vmem S1x131072x2 .i32) (harg3 : arg3.IsWhole) (arg4 : Memref sig .tc .vmem S1x128x128 .i32) (harg4 : arg4.IsWhole) (arg5 : Memref sig .tc .vmem S128x128 .f32) (harg5 : arg5.IsWhole) (hc0 : ¬cond0_0 i) (hc1 : ¬cond0_1 i) (x0 : Vec F S1x131072x2 .f32) (xs0 : Vec F S128x128 .f32) :
    sout0_B_0 c i arg2 harg2 arg3 harg3 arg4 harg4 arg5 harg5 hc0 hc1 x0 xs0 = accAfter x0 xs0 k0_t1_loop.trips := by
  unfold sout0_B_0
  rw [View.read_writes_of_cover VS0_0 VS0_0.junk arg5.view (harg5.unread xs0) _ (scover0_B_0 c i arg2 harg2 arg3 harg3 arg4 harg4 arg5 harg5 hc0 hc1 x0 xs0)]
  unfold kernelRun0_B
  dsimp only
  refine (read_acc_pb c i arg2 harg2 arg3 harg3 arg4 harg4 arg5 harg5 x0 _ _ k0_t1_loop.trips le_rfl).trans ?_
  rw [Memref.IsWhole.read_unread harg5]

/-- A batch's last block: the same accumulation, -/
theorem sout_C (c : Dev nD) (i : grid0.Coords) (arg2 : Memref sig .tc .vmem S1x131072x2 .f32) (harg2 : arg2.IsWhole) (arg3 : Memref sig .tc .vmem S1x131072x2 .i32) (harg3 : arg3.IsWhole) (arg4 : Memref sig .tc .vmem S1x128x128 .i32) (harg4 : arg4.IsWhole) (arg5 : Memref sig .tc .vmem S128x128 .f32) (harg5 : arg5.IsWhole) (hc0 : ¬cond0_0 i) (hc1 : cond0_1 i) (x0 : Vec F S1x131072x2 .f32) (xs0 : Vec F S128x128 .f32) :
    sout0_C_0 c i arg2 harg2 arg3 harg3 arg4 harg4 arg5 harg5 hc0 hc1 x0 xs0 = accAfter x0 xs0 k0_t1_loop.trips := by
  unfold sout0_C_0
  rw [View.read_writes_of_cover VS0_0 VS0_0.junk arg5.view (harg5.unread xs0) _ (scover0_C_0 c i arg2 harg2 arg3 harg3 arg4 harg4 arg5 harg5 hc0 hc1 x0 xs0)]
  unfold kernelRun0_C
  dsimp only
  refine (read_acc_pb c i arg2 harg2 arg3 harg3 arg4 harg4 arg5 harg5 x0 _ _ k0_t1_loop.trips le_rfl).trans ?_
  rw [Memref.IsWhole.read_unread harg5]

/-- and the histogram block is the accumulator after the loop, converted. -/
theorem out2_C (c : Dev nD) (i : grid0.Coords) (arg2 : Memref sig .tc .vmem S1x131072x2 .f32) (harg2 : arg2.IsWhole) (arg3 : Memref sig .tc .vmem S1x131072x2 .i32) (harg3 : arg3.IsWhole) (arg4 : Memref sig .tc .vmem S1x128x128 .i32) (harg4 : arg4.IsWhole) (arg5 : Memref sig .tc .vmem S128x128 .f32) (harg5 : arg5.IsWhole) (hc0 : ¬cond0_0 i) (hc1 : cond0_1 i) (x0 : Vec F S1x131072x2 .f32) (xs0 : Vec F S128x128 .f32) :
    out0_C_2 c i arg2 harg2 arg3 harg3 arg4 harg4 arg5 harg5 hc0 hc1 x0 xs0 = k0_pay5 (accAfter x0 xs0 k0_t1_loop.trips) := by
  unfold out0_C_2
  rw [View.read_writes_eq_canon _ _ _ (cover0_C_2 c i arg2 harg2 arg3 harg3 arg4 harg4 arg5 harg5 hc0 hc1 x0 xs0)]
  unfold kernelRun0_C
  dsimp only
  rw [View.canon_unit_zero (by funext a; fin_cases a <;> rfl)]
  congr 1
  refine (readAt_acc arg5 _).trans ?_
  refine (read_acc_pb c i arg2 harg2 arg3 harg3 arg4 harg4 arg5 harg5 x0 _ _ k0_t1_loop.trips le_rfl).trans ?_
  rw [Memref.IsWhole.read_unread harg5]

/-- A batch's first block: the accumulator is reset before the loop. -/
theorem sout_A (c : Dev nD) (i : grid0.Coords) (arg2 : Memref sig .tc .vmem S1x131072x2 .f32) (harg2 : arg2.IsWhole) (arg3 : Memref sig .tc .vmem S1x131072x2 .i32) (harg3 : arg3.IsWhole) (arg4 : Memref sig .tc .vmem S1x128x128 .i32) (harg4 : arg4.IsWhole) (arg5 : Memref sig .tc .vmem S128x128 .f32) (harg5 : arg5.IsWhole) (hc0 : cond0_0 i) (hc1 : ¬cond0_1 i) (x0 : Vec F S1x131072x2 .f32) :
    sout0_A_0 c i arg2 harg2 arg3 harg3 arg4 harg4 arg5 harg5 hc0 hc1 x0 = accAfter x0 (k0_pay1 (F := F)) k0_t1_loop.trips := by
  unfold sout0_A_0
  rw [View.read_writes_of_cover VS0_0 VS0_0.junk arg5.view arg5.view.junk _ (scover0_A_0 c i arg2 harg2 arg3 harg3 arg4 harg4 arg5 harg5 hc0 hc1 x0)]
  unfold kernelRun0_A
  dsimp only
  rw [View.writes_append]
  refine (read_acc_pb c i arg2 harg2 arg3 harg3 arg4 harg4 arg5 harg5 x0 _ _ k0_t1_loop.trips le_rfl).trans ?_
  congr 1
  sl_unfold_run_names
  exact read_writes_acc arg5 _ _ _

/-- The quantised block in each case: one function of the input block, when each chunk's payload is. -/
theorem out1_A (c : Dev nD) (i : grid0.Coords) (arg2 : Memref sig .tc .vmem S1x131072x2 .f32) (harg2 : arg2.IsWhole) (arg3 : Memref sig .tc .vmem S1x131072x2 .i32) (harg3 : arg3.IsWhole) (arg4 : Memref sig .tc .vmem S1x128x128 .i32) (harg4 : arg4.IsWhole) (arg5 : Memref sig .tc .vmem S128x128 .f32) (harg5 : arg5.IsWhole) (hc0 : cond0_0 i) (hc1 : ¬cond0_1 i) (x0 : Vec F S1x131072x2 .f32)
    (G : S1x131072x2.Idx → Elt F .i32)
    (hG : ∀ (k : Fin k0_t1_loop.trips) (x : (chunkRect k).shape.Idx), k0_pay3 (chunk x0 k) x = G ((chunkRect k).emb x)) :
    out0_A_1 c i arg2 harg2 arg3 harg3 arg4 harg4 arg5 harg5 hc0 hc1 x0 = G := by
  unfold out0_A_1
  rw [View.read_writes_eq_canon _ _ _ (cover0_A_1 c i arg2 harg2 arg3 harg3 arg4 harg4 arg5 harg5 hc0 hc1 x0)]
  funext y
  refine View.canon_apply_of_pieces G _ ?_ y (cover0_A_1 c i arg2 harg2 arg3 harg3 arg4 harg4 arg5 harg5 hc0 hc1 x0 y)
  unfold kernelRun0_A
  dsimp only
  exact pieces_pb c i arg2 harg2 arg3 harg3 arg4 harg4 arg5 harg5 x0 _ _ G hG k0_t1_loop.trips le_rfl

theorem out1_B (c : Dev nD) (i : grid0.Coords) (arg2 : Memref sig .tc .vmem S1x131072x2 .f32) (harg2 : arg2.IsWhole) (arg3 : Memref sig .tc .vmem S1x131072x2 .i32) (harg3 : arg3.IsWhole) (arg4 : Memref sig .tc .vmem S1x128x128 .i32) (harg4 : arg4.IsWhole) (arg5 : Memref sig .tc .vmem S128x128 .f32) (harg5 : arg5.IsWhole) (hc0 : ¬cond0_0 i) (hc1 : ¬cond0_1 i) (x0 : Vec F S1x131072x2 .f32) (xs0 : Vec F S128x128 .f32)
    (G : S1x131072x2.Idx → Elt F .i32)
    (hG : ∀ (k : Fin k0_t1_loop.trips) (x : (chunkRect k).shape.Idx), k0_pay3 (chunk x0 k) x = G ((chunkRect k).emb x)) :
    out0_B_1 c i arg2 harg2 arg3 harg3 arg4 harg4 arg5 harg5 hc0 hc1 x0 xs0 = G := by
  unfold out0_B_1
  rw [View.read_writes_eq_canon _ _ _ (cover0_B_1 c i arg2 harg2 arg3 harg3 arg4 harg4 arg5 harg5 hc0 hc1 x0 xs0)]
  funext y
  refine View.canon_apply_of_pieces G _ ?_ y (cover0_B_1 c i arg2 harg2 arg3 harg3 arg4 harg4 arg5 harg5 hc0 hc1 x0 xs0 y)
  unfold kernelRun0_B
  dsimp only
  exact pieces_pb c i arg2 harg2 arg3 harg3 arg4 harg4 arg5 harg5 x0 _ _ G hG k0_t1_loop.trips le_rfl

theorem out1_C (c : Dev nD) (i : grid0.Coords) (arg2 : Memref sig .tc .vmem S1x131072x2 .f32) (harg2 : arg2.IsWhole) (arg3 : Memref sig .tc .vmem S1x131072x2 .i32) (harg3 : arg3.IsWhole) (arg4 : Memref sig .tc .vmem S1x128x128 .i32) (harg4 : arg4.IsWhole) (arg5 : Memref sig .tc .vmem S128x128 .f32) (harg5 : arg5.IsWhole) (hc0 : ¬cond0_0 i) (hc1 : cond0_1 i) (x0 : Vec F S1x131072x2 .f32) (xs0 : Vec F S128x128 .f32)
    (G : S1x131072x2.Idx → Elt F .i32)
    (hG : ∀ (k : Fin k0_t1_loop.trips) (x : (chunkRect k).shape.Idx), k0_pay3 (chunk x0 k) x = G ((chunkRect k).emb x)) :
    out0_C_1 c i arg2 harg2 arg3 harg3 arg4 harg4 arg5 harg5 hc0 hc1 x0 xs0 = G := by
  unfold out0_C_1
  rw [View.read_writes_eq_canon _ _ _ (cover0_C_1 c i arg2 harg2 arg3 harg3 arg4 harg4 arg5 harg5 hc0 hc1 x0 xs0)]
  funext y
  refine View.canon_apply_of_pieces G _ ?_ y (cover0_C_1 c i arg2 harg2 arg3 harg3 arg4 harg4 arg5 harg5 hc0 hc1 x0 xs0 y)
  unfold kernelRun0_C
  dsimp only
  exact pieces_pb c i arg2 harg2 arg3 harg3 arg4 harg4 arg5 harg5 x0 _ _ G hG k0_t1_loop.trips le_rfl

/-- The loop makes 32 trips, and chunk `k` starts at row `4096·k`. -/
theorem trips_eq : k0_t1_loop.trips = 32 := by decide

theorem chunk_apply (x0 : Vec F S1x131072x2 .f32) (k : Fin k0_t1_loop.trips) (x : (chunkRect k).shape.Idx) :
    chunk x0 k x = x0 ((chunkRect k).emb x) := rfl

end Cert.KernelIdeal.LoopV

end
-- ==== Proof.LibDot.lean ====
/-
  Matrix products with ONE contracted axis and no batch axis, read at an entry at the ideal values, for any dimension
  numbers record whose axis lists are the stated ones (a printed record satisfies each hypothesis by `rfl`).

  With the accumulator the zero constant, the product at entry (a, b) is the sum over the contracted coordinate `c` of
  the left operand's entry times the right operand's entry; which coordinate of each operand `c` runs over is what the
  three forms below differ in: rows by columns (`_10`), the left operand transposed against a right operand contracted
  on its last axis (`_01`), and both operands contracted on their first axis (`_00`).
  Also: a non-contracting axis of either operand reads the output index, and the bf16 zero pattern is the real zero.
-/
import Idealize.ShloMosaic.Lib.ValueIdx
import Idealize.ShloMosaic.PureOps.Ideal.Laws

noncomputable section

open scoped BigOperators

namespace Cert.LibDot

open Idealize.ShloMosaic Idealize.ShloMosaic.ValueIdx

/-- The bf16 pattern of all zero bits is the number zero. -/
theorem ofBits_zero_bf16 : Ideal.ofBits .bf16 0x0000#16 = 0 := by simp [Ideal.ofBits, Ideal.ieee]

section Axes
variable {sl sr so : Shape} (d : DotDims sl sr so)

/-- With no batch axis and one non-contracting axis on the left, that axis of the left operand reads the output's
    first coordinate. -/
theorem lhsIdx_val_non {nl : Fin sl.rank} (hb : d.lhsBatch = []) (hn : d.lhsNonContracting = [nl]) (j : so.Idx)
    (k : d.contr.Idx) (h0 : 0 < so.rank) : (d.lhsIdx j k nl).val = (j ⟨0, h0⟩).val := by
  have hnb : nl ∉ d.lhsBatch := by rw [hb]; exact List.not_mem_nil
  have hmem : nl ∈ d.lhsNonContracting := by rw [hn]; exact List.mem_singleton.mpr rfl
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis and one non-contracting axis on each side, the right operand's non-contracting axis reads the
    output's second coordinate. -/
theorem rhsIdx_val_non {nl : Fin sl.rank} {nr : Fin sr.rank} (hlb : d.lhsBatch = []) (hrb : d.rhsBatch = [])
    (hln : d.lhsNonContracting = [nl]) (hn : d.rhsNonContracting = [nr]) (j : so.Idx)
    (k : d.contr.Idx) (h1 : 1 < so.rank) : (d.rhsIdx j k nr).val = (j ⟨1, h1⟩).val := by
  have hnb : nr ∉ d.rhsBatch := by rw [hrb]; exact List.not_mem_nil
  have hmem : nr ∈ d.rhsNonContracting := by rw [hn]; exact List.mem_singleton.mpr rfl
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hlb, hln, hn])

end Axes

/-- Rows by columns: an `M × K` by a `K × N` operand, the left contracted on its last axis and the right on its
    first. -/
theorem matmul_10_zero_apply {M K N : Nat} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![M, K]⟩ φ₁) (B : FVec Ideal ⟨2, ![K, N]⟩ φ₂)
    (a : Fin M) (b : Fin N) :
    matmul (F := Ideal) d prec A B (constant ⟨2, ![M, N]⟩ .f32 0x00000000#32) (ix2 a b)
      = ∑ c : Fin K, A (ix2 a c) * B (ix2 c b) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l0 := lhsIdx_val_non d hlb hln (ix2 a b) ((contrEquiv1 d K hr hs).symm c) Nat.zero_lt_two
  have l1 := (d.lhsIdx_val_of_single hlc (ix2 a b) ((contrEquiv1 d K hr hs).symm c)).trans c2
  have r0 := (d.rhsIdx_val_of_single hrc (ix2 a b) ((contrEquiv1 d K hr hs).symm c)).trans c2
  have r1 := rhsIdx_val_non d hlb hrb hln hrn (ix2 a b) ((contrEquiv1 d K hr hs).symm c) Nat.one_lt_two
  have l2 : d.lhsIdx (ix2 a b) ((contrEquiv1 d K hr hs).symm c) = ix2 a c := by
    funext ax; apply Fin.ext
    match ax with
    | ⟨0, _⟩ => exact l0
    | ⟨1, _⟩ => exact l1
  have r2 : d.rhsIdx (ix2 a b) ((contrEquiv1 d K hr hs).symm c) = ix2 c b := by
    funext ax; apply Fin.ext
    match ax with
    | ⟨0, _⟩ => exact r0
    | ⟨1, _⟩ => exact r1
  rw [l2, r2]

/-- A `K × M` left operand contracted on its first axis against an `N × K` right operand contracted on its last. -/
theorem matmul_01_zero_apply {M K N : Nat} {φ₁ φ₂ : FTy} (d : DotDims ⟨2, ![K, M]⟩ ⟨2, ![N, K]⟩ ⟨2, ![M, N]⟩)
    (hlc : d.lhsContracting = [0]) (hrc : d.rhsContracting = [1]) (hln : d.lhsNonContracting = [1])
    (hrn : d.rhsNonContracting = [0]) (hlb : d.lhsBatch = []) (hrb : d.rhsBatch = [])
    (prec : Option ContractPrecision) (A : FVec Ideal ⟨2, ![K, M]⟩ φ₁) (B : FVec Ideal ⟨2, ![N, K]⟩ φ₂)
    (a : Fin M) (b : Fin N) :
    matmul (F := Ideal) d prec A B (constant ⟨2, ![M, N]⟩ .f32 0x00000000#32) (ix2 a b)
      = ∑ c : Fin K, A (ix2 c a) * B (ix2 b c) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l1 := lhsIdx_val_non d hlb hln (ix2 a b) ((contrEquiv1 d K hr hs).symm c) Nat.zero_lt_two
  have l0 := (d.lhsIdx_val_of_single hlc (ix2 a b) ((contrEquiv1 d K hr hs).symm c)).trans c2
  have r1 := (d.rhsIdx_val_of_single hrc (ix2 a b) ((contrEquiv1 d K hr hs).symm c)).trans c2
  have r0 := rhsIdx_val_non d hlb hrb hln hrn (ix2 a b) ((contrEquiv1 d K hr hs).symm c) Nat.one_lt_two
  have l2 : d.lhsIdx (ix2 a b) ((contrEquiv1 d K hr hs).symm c) = ix2 c a := by
    funext ax; apply Fin.ext
    match ax with
    | ⟨0, _⟩ => exact l0
    | ⟨1, _⟩ => exact l1
  have r2 : d.rhsIdx (ix2 a b) ((contrEquiv1 d K hr hs).symm c) = ix2 b c := by
    funext ax; apply Fin.ext
    match ax with
    | ⟨0, _⟩ => exact r0
    | ⟨1, _⟩ => exact r1
  rw [l2, r2]

/-- Both operands contracted on their first axis: a `K × M` by a `K × N` operand. -/
theorem matmul_00_zero_apply {M K N : Nat} {φ₁ φ₂ : FTy} (d : DotDims ⟨2, ![K, M]⟩ ⟨2, ![K, N]⟩ ⟨2, ![M, N]⟩)
    (hlc : d.lhsContracting = [0]) (hrc : d.rhsContracting = [0]) (hln : d.lhsNonContracting = [1])
    (hrn : d.rhsNonContracting = [1]) (hlb : d.lhsBatch = []) (hrb : d.rhsBatch = [])
    (prec : Option ContractPrecision) (A : FVec Ideal ⟨2, ![K, M]⟩ φ₁) (B : FVec Ideal ⟨2, ![K, N]⟩ φ₂)
    (a : Fin M) (b : Fin N) :
    matmul (F := Ideal) d prec A B (constant ⟨2, ![M, N]⟩ .f32 0x00000000#32) (ix2 a b)
      = ∑ c : Fin K, A (ix2 c a) * B (ix2 c b) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l1 := lhsIdx_val_non d hlb hln (ix2 a b) ((contrEquiv1 d K hr hs).symm c) Nat.zero_lt_two
  have l0 := (d.lhsIdx_val_of_single hlc (ix2 a b) ((contrEquiv1 d K hr hs).symm c)).trans c2
  have r0 := (d.rhsIdx_val_of_single hrc (ix2 a b) ((contrEquiv1 d K hr hs).symm c)).trans c2
  have r1 := rhsIdx_val_non d hlb hrb hln hrn (ix2 a b) ((contrEquiv1 d K hr hs).symm c) Nat.one_lt_two
  have l2 : d.lhsIdx (ix2 a b) ((contrEquiv1 d K hr hs).symm c) = ix2 c a := by
    funext ax; apply Fin.ext
    match ax with
    | ⟨0, _⟩ => exact l0
    | ⟨1, _⟩ => exact l1
  have r2 : d.rhsIdx (ix2 a b) ((contrEquiv1 d K hr hs).symm c) = ix2 c b := by
    funext ax; apply Fin.ext
    match ax with
    | ⟨0, _⟩ => exact r0
    | ⟨1, _⟩ => exact r1
  rw [l2, r2]

end Cert.LibDot

end
-- ==== Proof.Spec.lean ====
/-
  The specification both programs are compared with, over the argument array alone.

  A point's coordinate is quantised by scaling with 127 and truncating toward zero to a 32-bit integer; the first result
  is that quantisation of every entry. The second result is a histogram: entry (b, h, w) is the NUMBER of points n of
  batch b whose quantised second coordinate is h and whose quantised first coordinate is w, as a 32-bit integer.
  The number is taken through its prefixes (the points before position N), which is what an accumulation over
  consecutive chunks of points adds to, chunk by chunk.
-/
import Idealize.ShloMosaic.Lib.ValueIdx
import Idealize.ShloMosaic.PureOps.Ideal.Laws

noncomputable section

open scoped BigOperators

namespace Cert.Hist

open Idealize.ShloMosaic Idealize.ShloMosaic.ValueIdx

abbrev SXY : Shape := ⟨3, ![16, 1048576, 2]⟩
abbrev SVox : Shape := ⟨3, ![16, 128, 128]⟩

/-- One coordinate quantised: scaled by 127 (the pattern 0x42FE0000) and truncated toward zero. -/
def quant (x : EReal) : BitVec 32 := Ideal.fptosi 32 (x * Ideal.ofBits .f32 0x42FE0000#32)

/-- The first result: every entry quantised. -/
def Q (xy : SXY.Idx → EReal) : SXY.Idx → BitVec 32 := fun i => quant (xy i)

/-- Point `n` of batch `b` falls in voxel `(h, w)`: its second coordinate quantises to `h`, its first to `w`. -/
def hit (xy : SXY.Idx → EReal) (b : Fin 16) (h w : Fin 128) (n : Fin 1048576) : Prop :=
  quant (xy (ix3 b n 1)) = BitVec.ofNat 32 h.val ∧ quant (xy (ix3 b n 0)) = BitVec.ofNat 32 w.val

instance (xy : SXY.Idx → EReal) (b : Fin 16) (h w : Fin 128) : DecidablePred (hit xy b h w) :=
  fun n => by unfold hit; exact inferInstance

/-- How many of the first `N` points of batch `b` fall in voxel `(h, w)`. -/
def cntUpTo (xy : SXY.Idx → EReal) (b : Fin 16) (h w : Fin 128) (N : ℕ) : ℕ :=
  (Finset.univ.filter fun n : Fin 1048576 => n.val < N ∧ hit xy b h w n).card

/-- The second result: the histogram, each count as a 32-bit integer. -/
def Hist (xy : SXY.Idx → EReal) : SVox.Idx → BitVec 32 :=
  fun j => BitVec.ofNat 32 (cntUpTo xy (j 0) (j 1) (j 2) 1048576)

theorem Hist_apply (xy : SXY.Idx → EReal) (b : Fin 16) (h w : Fin 128) :
    Hist xy (ix3 b h w) = BitVec.ofNat 32 (cntUpTo xy b h w 1048576) := rfl

/-- The indicator of a proposition as a number. -/
def ind (p : Prop) [Decidable p] : EReal := if p then 1 else 0

theorem cntUpTo_zero (xy : SXY.Idx → EReal) (b : Fin 16) (h w : Fin 128) : cntUpTo xy b h w 0 = 0 := by
  -- no position lies below 0, so the filtered set is empty
  unfold cntUpTo
  rw [Finset.card_eq_zero, Finset.filter_eq_empty_iff]
  intro n _ hn
  exact Nat.not_lt_zero _ hn.1

theorem cntUpTo_le (xy : SXY.Idx → EReal) (b : Fin 16) (h w : Fin 128) (N : ℕ) : cntUpTo xy b h w N ≤ 1048576 := by
  -- a subset of the 1048576 positions has at most that many members
  unfold cntUpTo
  calc _ ≤ (Finset.univ : Finset (Fin 1048576)).card := Finset.card_filter_le _ _
    _ = 1048576 := by rw [Finset.card_univ, Fintype.card_fin]

/-- A further chunk of `R` points adds the number of its own points that fall in the voxel. -/
theorem cntUpTo_add (xy : SXY.Idx → EReal) (b : Fin 16) (h w : Fin 128) (N R : ℕ) (hNR : N + R ≤ 1048576) :
    cntUpTo xy b h w (N + R)
      = cntUpTo xy b h w N + (Finset.univ.filter fun r : Fin R => hit xy b h w ⟨N + r.val, by omega⟩).card := by
  unfold cntUpTo
  -- the positions below N + R are those below N together with those in [N, N + R)
  have hsplit : (Finset.univ.filter fun n : Fin 1048576 => n.val < N + R ∧ hit xy b h w n)
      = (Finset.univ.filter fun n : Fin 1048576 => n.val < N ∧ hit xy b h w n)
        ∪ (Finset.univ.filter fun n : Fin 1048576 => (N ≤ n.val ∧ n.val < N + R) ∧ hit xy b h w n) := by
    ext n
    simp only [Finset.mem_union, Finset.mem_filter, Finset.mem_univ, true_and]
    constructor
    · rintro ⟨h1, h2⟩
      by_cases hn : n.val < N
      · exact Or.inl ⟨hn, h2⟩
      · exact Or.inr ⟨⟨Nat.le_of_not_lt hn, h1⟩, h2⟩
    · rintro (⟨h1, h2⟩ | ⟨⟨_, h1⟩, h2⟩)
      · exact ⟨Nat.lt_of_lt_of_le h1 (Nat.le_add_right N R), h2⟩
      · exact ⟨h1, h2⟩
  have hdisj : Disjoint (Finset.univ.filter fun n : Fin 1048576 => n.val < N ∧ hit xy b h w n)
      (Finset.univ.filter fun n : Fin 1048576 => (N ≤ n.val ∧ n.val < N + R) ∧ hit xy b h w n) := by
    rw [Finset.disjoint_left]
    intro n h1 h2
    simp only [Finset.mem_filter, Finset.mem_univ, true_and] at h1 h2
    exact absurd h1.1 (Nat.not_lt.mpr h2.1.1)
  rw [hsplit, Finset.card_union_of_disjoint hdisj, Nat.add_left_cancel_iff]
  -- the upper part is the image of the chunk's own positions under r ↦ N + r
  symm
  refine Finset.card_bij (fun r _ => (⟨N + r.val, by omega⟩ : Fin 1048576)) ?_ ?_ ?_
  · intro r hr
    simp only [Finset.mem_filter, Finset.mem_univ, true_and] at hr ⊢
    exact ⟨⟨Nat.le_add_right N r.val, Nat.add_lt_add_left r.isLt N⟩, hr⟩
  · intro r₁ _ r₂ _ he
    have := congrArg Fin.val he
    simp only at this
    exact Fin.ext (Nat.add_left_cancel this)
  · intro n hn
    simp only [Finset.mem_filter, Finset.mem_univ, true_and] at hn
    obtain ⟨⟨hlo, hhi⟩, hh⟩ := hn
    refine ⟨⟨n.val - N, by omega⟩, ?_, ?_⟩
    · simp only [Finset.mem_filter, Finset.mem_univ, true_and]
      have he : (⟨N + (n.val - N), by omega⟩ : Fin 1048576) = n := Fin.ext (by simp only; omega)
      rw [he]; exact hh
    · exact Fin.ext (by simp only; omega)

/-- The coercion of the reals into the extended reals goes through a finite sum. -/
private theorem coe_sum_real {α : Type} (s : Finset α) (f : α → ℝ) :
    ((∑ a ∈ s, f a : ℝ) : EReal) = ∑ a ∈ s, (f a : EReal) := by
  classical
  induction s using Finset.induction_on with
  | empty => rw [Finset.sum_empty, Finset.sum_empty, EReal.coe_zero]
  | insert a s ha ih => rw [Finset.sum_insert ha, Finset.sum_insert ha, EReal.coe_add, ih]

/-- A product of two indicators is the indicator of the conjunction, a real number. -/
private theorem ind_mul_ind (p p' : Prop) [Decidable p] [Decidable p'] :
    ind p * ind p' = (((if p ∧ p' then 1 else 0 : ℝ)) : EReal) := by
  unfold ind
  by_cases hp : p <;> by_cases hp' : p' <;> simp [hp, hp']

/-- A sum of products of two indicators counts where both hold. -/
theorem sum_ind_mul {R : ℕ} (P P' : Fin R → Prop) [DecidablePred P] [DecidablePred P'] :
    (∑ r : Fin R, ind (P r) * ind (P' r)) = (((Finset.univ.filter fun r => P r ∧ P' r).card : ℝ) : EReal) := by
  simp only [ind_mul_ind]
  rw [← coe_sum_real, Finset.sum_boole]

/-- The accumulation step on the extended reals: the count so far plus a chunk's sum of indicator products is the
    count with the chunk. -/
theorem acc_step (xy : SXY.Idx → EReal) (b : Fin 16) (h w : Fin 128) (N R : ℕ) (hNR : N + R ≤ 1048576) :
    ((cntUpTo xy b h w N : ℝ) : EReal)
        + (∑ r : Fin R, ind (quant (xy (ix3 b ⟨N + r.val, by omega⟩ 1)) = BitVec.ofNat 32 h.val)
            * ind (quant (xy (ix3 b ⟨N + r.val, by omega⟩ 0)) = BitVec.ofNat 32 w.val))
      = ((cntUpTo xy b h w (N + R) : ℝ) : EReal) := by
  rw [sum_ind_mul, cntUpTo_add xy b h w N R hNR, Nat.cast_add, EReal.coe_add]
  rfl

/-- Truncating a natural number below 2^31 to a 32-bit integer gives that number. -/
theorem fptosi_natCast (c : ℕ) (hc : c < 2 ^ 31) : Ideal.fptosi 32 (((c : ℝ)) : EReal) = BitVec.ofNat 32 c := by
  unfold Ideal.fptosi
  rw [Ideal.toIntClamped_coe]
  -- a natural number is its own floor, and lies inside the clamp's range
  have h0 : (0 : ℝ) ≤ (c : ℝ) := Nat.cast_nonneg c
  rw [if_pos h0, Int.floor_natCast]
  have h1 : min (((2 ^ (32 - 1) : ℕ) : ℤ) - 1) (c : ℤ) = c := by
    apply min_eq_right; push_cast; omega
  have h2 : max (-((2 ^ (32 - 1) : ℕ) : ℤ)) (c : ℤ) = c := by
    apply max_eq_right; push_cast; omega
  rw [h1, h2, BitVec.ofInt_natCast]

end Cert.Hist

end
-- ==== Proof.Payload.lean ====
/-
  The body's arithmetic read at an entry, at the ideal values: the reset stores zero; the quantised chunk is each entry
  scaled by 127 and truncated; one accumulation adds, at entry (h, w), the number-valued sum over the chunk's points of
  the product of two indicators (the point's second coordinate quantises to h, its first to w), which is what the
  product of the two one-hot matrices contracted over the points is; the final conversion truncates each entry.
-/
import proofs.«100373_j446676598908_1_alg».proof.Proof.Gen.KernelIdeal.Skeleton
import proofs.«100373_j446676598908_1_alg».proof.Proof.LibDot
import proofs.«100373_j446676598908_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Idealize.ShloMosaic Idealize.ShloMosaic.ValueIdx
open Cert.KernelIdeal Cert.KernelIdeal.Gen Cert.Hist

/-- The reset value is zero everywhere. -/
theorem pay1_apply (j : S128x128.Idx) : k0_pay1 (F := Ideal) j = 0 := by
  unfold k0_pay1
  -- the cast to the same shape is the identity, and the broadcast scalar is the pattern of all zero bits
  rw [shapeCast_self]
  show Ideal.ofBits .f32 0x00000000#32 = 0
  exact Ideal.ofBits_zero_f32

/-- The quantised chunk before its unit axis is put back: entry (r, c) is the quantisation of the chunk's entry
    (0, r, c). -/
private theorem pay2_apply (v11 : Vec Ideal S1x4096x2 .f32) (r : Fin 4096) (cc : Fin 2) :
    k0_pay2 (F := Ideal) v11 (ix2 r cc) = quant (v11 (ix3 (0 : Fin 1) r cc)) := by
  unfold k0_pay2 quant
  -- the truncation and the product read entry by entry; the second factor is the broadcast constant
  show Ideal.fptosi 32 (shapeCast S4096x2 v11 shapeCasts_S1x4096x2_S4096x2 (ix2 r cc)
      * Ideal.ofBits .f32 0x42FE0000#32) = _
  -- dropping the leading unit axis reads (0, r, c) at (r, c)
  exact congrArg (fun x => Ideal.fptosi 32 (x * Ideal.ofBits .f32 0x42FE0000#32))
    (shapeCast_1ab_ab_apply v11 shapeCasts_S1x4096x2_S4096x2 r cc)

/-- The quantised chunk, entry by entry. -/
theorem pay3_apply (v11 : Vec Ideal S1x4096x2 .f32) (j : S1x4096x2.Idx) :
    k0_pay3 (F := Ideal) v11 j = quant (v11 j) := by
  obtain ⟨a, r, cc, rfl⟩ : ∃ (a : Fin 1) (r : Fin 4096) (cc : Fin 2), j = ix3 a r cc :=
    ⟨j 0, j 1, j 2, eq_ix3 j⟩
  -- the only value of the unit coordinate is 0
  obtain rfl : a = 0 := Subsingleton.elim _ _
  unfold k0_pay3
  -- putting the unit axis back reads (r, c) at (0, r, c)
  refine (shapeCast_ab_1ab_apply (k0_pay2 (F := Ideal) v11) shapeCasts_S4096x2_S1x4096x2 0 r cc).trans ?_
  exact pay2_apply v11 r cc

/-- Two words compared for equality, the bit widened to a word and read as a signed number: the indicator of the
    equality. -/
private theorem bit_to_ind (a b : BitVec 32) :
    ((((((BitVec.ofBool (a == b)).setWidth 32).toInt : ℤ) : ℝ)) : EReal) = ind (a = b) := by
  by_cases hq : a = b
  · subst hq
    simp [ind]
  · have hne : (a == b) = false := by simpa using hq
    simp [ind, hq, hne]

/-- A one-hot matrix entry: column `c` of the quantised chunk, spread over 128 lanes, compared with the lane number,
    widened and converted, is at (r, h) the indicator that the chunk's entry (r, c) is h. -/
private theorem onehot_apply (x : IVec S4096x2 32) (o : Nat) (hs : S4096x2.Slices ![0, o] S4096x1) (c : Fin 2)
    (hc : c.val = o + (0 : Fin 1).val) (r : Fin 4096) (h : Fin 128) :
    (truncf .bf16 (sitofp (F := Ideal) .f32 (extui 32 (cmpi .eq
        (broadcastTo S4096x128 (extractStridedSlice S4096x1 ![0, o] x hs) broadcasts_S4096x1_S4096x128)
        (iota .tc S4096x128 32 [1] iota_S4096x128_d1_w32)) natLt_1_32)) bitsLt_bf16_f32
      : FVec Ideal S4096x128 .bf16) (ix2 r h)
      = ind (x (ix2 r c) = BitVec.ofNat 32 h.val) := by
  -- the spread column at (r, h) is the slice at (r, 0), which is the chunk at (r, c)
  have hb : broadcastTo S4096x128 (extractStridedSlice S4096x1 ![0, o] x hs) broadcasts_S4096x1_S4096x128 (ix2 r h)
      = x (ix2 r c) := by
    refine (broadcastTo_apply _ broadcasts_S4096x1_S4096x128 (ix2 r h) (ix2 r (0 : Fin 1)) fun ax => ?_).trans ?_
    · match ax with
      | ⟨0, _⟩ => rfl
      | ⟨1, _⟩ => rfl
    · exact slice2_axis1_apply o x hs r (0 : Fin 1) c hc
  -- the lane numbers along axis 1 read the second coordinate
  have hi : iota .tc S4096x128 32 [1] iota_S4096x128_d1_w32 (ix2 r h) = BitVec.ofNat 32 h.val :=
    iota_single_apply .tc S4096x128 32 1 iota_S4096x128_d1_w32 (ix2 r h)
  -- the format change is the identity, the conversion reads the word signed, the widening and comparison entry by entry
  show ((((((BitVec.ofBool
      (broadcastTo S4096x128 (extractStridedSlice S4096x1 ![0, o] x hs) broadcasts_S4096x1_S4096x128 (ix2 r h)
        == iota .tc S4096x128 32 [1] iota_S4096x128_d1_w32 (ix2 r h))).setWidth 32).toInt : ℤ) : ℝ)) : EReal) = _
  rw [hb, hi]
  exact bit_to_ind _ _

/-- One accumulation at entry (h, w): what was there plus the chunk's count-valued sum of indicator products. -/
theorem pay4_apply (v11 : Vec Ideal S1x4096x2 .f32) (v33 : Vec Ideal S128x128 .f32) (h w : Fin 128) :
    k0_pay4 (F := Ideal) v11 v33 (ix2 h w)
      = v33 (ix2 h w)
        + ∑ r : Fin 4096, ind (quant (v11 (ix3 (0 : Fin 1) r (1 : Fin 2))) = BitVec.ofNat 32 h.val)
            * ind (quant (v11 (ix3 (0 : Fin 1) r (0 : Fin 2))) = BitVec.ofNat 32 w.val) := by
  unfold k0_pay4
  -- the cast to the same shape is the identity and the sum reads entry by entry
  rw [shapeCast_self]
  show v33 (ix2 h w) + matmul (F := Ideal) dot_S4096x128_S4096x128_S128x128_0_0_1_1_n_n none _ _
      (constant S128x128 .f32 0x00000000#32) (ix2 h w) = _
  refine congrArg (v33 (ix2 h w) + ·) ?_
  -- both operands are contracted over the points: entry (h, w) is the sum over r of left (r, h) times right (r, w)
  refine (Cert.LibDot.matmul_00_zero_apply dot_S4096x128_S4096x128_S128x128_0_0_1_1_n_n rfl rfl rfl rfl rfl rfl
    none _ _ h w).trans ?_
  refine Finset.sum_congr rfl fun r _ => ?_
  -- the left operand is the one-hot of column 1, the right operand that of column 0
  refine (congrArg₂ (· * ·)
    (onehot_apply (k0_pay2 (F := Ideal) v11) 1 slices_S4096x2_o0_1_S4096x1 1 rfl r h)
    (onehot_apply (k0_pay2 (F := Ideal) v11) 0 slices_S4096x2_o0_0_S4096x1 0 rfl r w)).trans ?_
  rw [pay2_apply, pay2_apply]

/-- The final conversion, entry by entry. -/
theorem pay5_apply (v8 : Vec Ideal S128x128 .f32) (h w : Fin 128) :
    k0_pay5 (F := Ideal) v8 (ix3 (0 : Fin 1) h w) = Ideal.fptosi 32 (v8 (ix2 h w)) := by
  unfold k0_pay5
  -- adding the leading unit axis reads (h, w) at (0, h, w); the truncation reads entry by entry
  exact shapeCast_ab_1ab_apply (fptosi (F := Ideal) 32 v8) shapeCasts_S128x128_S1x128x128 0 h w

end Cert.KernelIdeal.Pay

end
-- ==== Proof.PointsA.lean ====
/-
  A grid point's input block and one block's accumulation, at the ideal values. Grid point t works on batch t / 8 and
  on that batch's points 131072·(t % 8) … ; over one block, from the count of the batch's points before the block's
  first point, the chunks bring, one after the other, the count of the points before the next chunk.
-/
import proofs.«100373_j446676598908_1_alg».proof.Proof.LoopVal
import proofs.«100373_j446676598908_1_alg».proof.Proof.Payload
import proofs.«100373_j446676598908_1_alg».proof.Proof.Spec
import Idealize.ShloMosaic.Lib.ValueIdx
import Idealize.ShloMosaic.Lib.Pipeline.Value

set_option maxRecDepth 16384

noncomputable section

open scoped BigOperators

namespace Cert.KernelIdeal.Pts

open Idealize.ShloMosaic Idealize.ShloMosaic.TcCoe Idealize.ShloMosaic.ValueIdx
open Idealize.SL.Sem
open Cert.KernelIdeal Cert.KernelIdeal.Gen Cert.KernelIdeal.TripP Cert.KernelIdeal.LoopV Cert.KernelIdeal.Pay Cert.Hist

variable (m : (ℓ : Loc nD τ sig) → Buf (Elt Ideal) ℓ)

/-- Core `c`'s argument array. -/
abbrev xyArr (c : Dev nD) : Vec Ideal S16x1048576x2 .f32 := V m c main_arg0

theorem N_eq : cfg0.N = 128 := N_0

/-- The batch a grid point works on. -/
def batchOf (t : Fin cfg0.N) : Fin 16 := ⟨t.val / 8, by have := lt_of_lt_of_eq t.isLt N_eq; omega⟩

/-- The input window's block index over the grid: point `t` reads block `(t / 8, t % 8, 0)`. -/
private theorem idx_facts0 : ∀ t : Fin cfg0.N, win0_0.index t (0 : Fin 3) = t.val / 8
    ∧ win0_0.index t (1 : Fin 3) = t.val % 8 ∧ win0_0.index t (2 : Fin 3) = 0 :=
  (by decide +kernel : ∀ t : Fin grid0.N, _)

/-- Block `t` of the argument array: batch `t / 8`, points from `131072·(t % 8)`. -/
theorem iblk_apply (c : Dev nD) (t : Fin cfg0.N) (a : Fin 1) (r : Fin 131072) (cc : Fin 2) :
    iblk m c 0 t (ix3 a r cc)
      = xyArr m c (ix3 (batchOf t) ⟨131072 * (t.val % 8) + r.val, by have := r.isLt; omega⟩ cc) := by
  obtain ⟨e0, e1, e2⟩ := idx_facts0 t
  have ha : a.val = 0 := by omega
  -- the block reads the array through its rectangle: on each axis, block index × block size + the inner coordinate
  show V m c main_arg0 (((cfg0.win 0).blk t).view.emb (ix3 a r cc)) = V m c main_arg0 _
  refine congrArg (V m c main_arg0) ?_
  funext ax; apply Fin.ext
  match ax with
  | ⟨0, _⟩ =>
    show win0_0.index t (0 : Fin 3) * 1 + 1 * a.val = t.val / 8
    omega
  | ⟨1, _⟩ =>
    show win0_0.index t (1 : Fin 3) * 131072 + 1 * r.val = 131072 * (t.val % 8) + r.val
    omega
  | ⟨2, _⟩ =>
    show win0_0.index t (2 : Fin 3) * 2 + 1 * cc.val = cc.val
    omega

/-- Chunk `n` of a block, entry by entry: row `r` of the chunk is row `4096·n + r` of the block. -/
private theorem chunk_ix3 (x0 : Vec Ideal S1x131072x2 .f32) (n : ℕ) (hn : n < k0_t1_loop.trips) (r : Fin 4096)
    (cc : Fin 2) :
    chunk x0 ⟨n, hn⟩ (ix3 (0 : Fin 1) r cc)
      = x0 (ix3 (0 : Fin 1) ⟨4096 * n + r.val, by
          have h32 : n < 32 := lt_of_lt_of_eq hn trips_eq
          have := r.isLt; omega⟩ cc) := by
  -- the chunk reads the block through its rectangle, whose placement adds the offset (0, 4096·n, 0) at stride 1
  refine (chunk_apply x0 ⟨n, hn⟩ _).trans (congrArg x0 ?_)
  have e := k0_off1_eq ⟨n, hn⟩
  funext ax; apply Fin.ext
  match ax with
  | ⟨0, _⟩ =>
    show k0_off1 ⟨n, hn⟩ 0 + 1 * (0 : Fin 1).val = 0
    rw [e]; rfl
  | ⟨1, _⟩ =>
    show k0_off1 ⟨n, hn⟩ 1 + 1 * r.val = 4096 * n + r.val
    rw [e]; simp
  | ⟨2, _⟩ =>
    show k0_off1 ⟨n, hn⟩ 2 + 1 * cc.val = cc.val
    rw [e]; simp

/-- The accumulation over one block: from the count of the batch's points before `N0`, the first `n` chunks of the
    block that starts at point `N0` bring the count of the points before `N0 + 4096·n`. -/
theorem accAfter_count (xy : SXY.Idx → EReal) (b : Fin 16) (N0 : ℕ) (hN0 : N0 + 131072 ≤ 1048576)
    (x0 : Vec Ideal S1x131072x2 .f32)
    (hx0 : ∀ (r : Fin 131072) (cc : Fin 2), x0 (ix3 (0 : Fin 1) r cc) = xy (ix3 b ⟨N0 + r.val, by have := r.isLt; omega⟩ cc))
    (acc : Vec Ideal S128x128 .f32) (hacc : ∀ h w : Fin 128, acc (ix2 h w) = ((cntUpTo xy b h w N0 : ℝ) : EReal))
    (n : ℕ) (hn : n ≤ 32) (h w : Fin 128) :
    accAfter x0 acc n (ix2 h w) = ((cntUpTo xy b h w (N0 + 4096 * n) : ℝ) : EReal) := by
  induction n with
  | zero =>
    -- no chunk yet: the accumulator is as it entered
    rw [Nat.mul_zero, Nat.add_zero]
    exact hacc h w
  | succ n ih =>
    have hlt : n < k0_t1_loop.trips := by rw [trips_eq]; omega
    have hNR : (N0 + 4096 * n) + 4096 ≤ 1048576 := by omega
    -- chunk n adds its sum of indicator products to what the chunks before left
    rw [show accAfter x0 acc (n + 1) = k0_pay4 (chunk x0 ⟨n, hlt⟩) (accAfter x0 acc n) from
      accAfter_succ x0 acc ⟨n, hlt⟩]
    rw [pay4_apply, ih (Nat.le_of_succ_le hn)]
    rw [show N0 + 4096 * (n + 1) = (N0 + 4096 * n) + 4096 by omega, ← acc_step xy b h w (N0 + 4096 * n) 4096 hNR]
    refine congrArg (((cntUpTo xy b h w (N0 + 4096 * n) : ℝ) : EReal) + ·) ?_
    refine Finset.sum_congr rfl fun r _ => ?_
    -- row r of chunk n is point N0 + 4096·n + r of the batch
    have key : ∀ cc : Fin 2, chunk x0 ⟨n, hlt⟩ (ix3 (0 : Fin 1) r cc)
        = xy (ix3 b ⟨N0 + 4096 * n + r.val, by have := r.isLt; omega⟩ cc) := fun cc => by
      rw [chunk_ix3, hx0]
      exact congrArg (fun q => xy (ix3 b q cc)) (Fin.ext (Nat.add_assoc _ _ _).symm)
    rw [key 1, key 0]

end Cert.KernelIdeal.Pts

end
-- ==== Proof.Points.lean ====
/-
  The body's runs along the grid, at the ideal values. Grid point t works on batch t / 8 and on that batch's points
  131072·(t % 8) … 131072·(t % 8 + 1). Its quantised block is the quantisation of its input block. The accumulator,
  reset at a batch's first block, holds after point t the count, voxel by voxel, of the batch's points before position
  131072·(t % 8 + 1) that fall in the voxel (as a number); after the batch's last block that is the count over the
  whole batch, and the histogram block written there is that count as a 32-bit integer (it is below 2^31).
-/
import proofs.«100373_j446676598908_1_alg».proof.Proof.PointsA
import proofs.«100373_j446676598908_1_alg».proof.Proof.LoopVal
import proofs.«100373_j446676598908_1_alg».proof.Proof.Payload
import proofs.«100373_j446676598908_1_alg».proof.Proof.Spec
import Idealize.ShloMosaic.Lib.ValueIdx
import Idealize.ShloMosaic.Lib.Pipeline.Value

set_option maxRecDepth 16384

noncomputable section

open scoped BigOperators

namespace Cert.KernelIdeal.Pts

open Idealize.ShloMosaic Idealize.ShloMosaic.TcCoe Idealize.ShloMosaic.ValueIdx
open Idealize.SL.Sem
open Cert.KernelIdeal Cert.KernelIdeal.Gen Cert.KernelIdeal.TripP Cert.KernelIdeal.LoopV Cert.KernelIdeal.Pay Cert.Hist

variable (m : (ℓ : Loc nD τ sig) → Buf (Elt Ideal) ℓ)

/-- One block's accumulation: entering point `t`'s loop with the count of the batch's points before the block, the
    accumulator leaves it with the count of the points before the next block. -/
private theorem block_count (c : Dev nD) (t : Fin cfg0.N) (acc : Vec Ideal S128x128 .f32)
    (hacc : ∀ h w : Fin 128,
      acc (ix2 h w) = ((cntUpTo (xyArr m c) (batchOf t) h w (131072 * (t.val % 8)) : ℝ) : EReal))
    (h w : Fin 128) :
    accAfter (iblk m c 0 t) acc k0_t1_loop.trips (ix2 h w)
      = ((cntUpTo (xyArr m c) (batchOf t) h w (131072 * (t.val % 8 + 1)) : ℝ) : EReal) := by
  have hN : 131072 * (t.val % 8) + 131072 ≤ 1048576 := by omega
  have e := accAfter_count (xyArr m c) (batchOf t) (131072 * (t.val % 8)) hN (iblk m c 0 t)
    (fun r cc => iblk_apply m c t 0 r cc) acc hacc 32 le_rfl h w
  -- 32 chunks of 4096 points make the block's 131072
  have hlen : 131072 * (t.val % 8) + 4096 * 32 = 131072 * (t.val % 8 + 1) := by omega
  rw [trips_eq, e, hlen]

/-- What the accumulator holds after point `t`. -/
theorem scratch_after (c : Dev nD) (t : Fin cfg0.N) (h w : Fin 128) :
    (outsAt0 m c t.val t.isLt).2.2 (ix2 h w)
      = ((cntUpTo (xyArr m c) (batchOf t) h w (131072 * (t.val % 8 + 1)) : ℝ) : EReal) := by
  -- by induction along the grid: a batch's first point starts from zero, a later point from what the point before left
  suffices H : ∀ (n : ℕ) (t : Fin cfg0.N), t.val = n → ∀ h w : Fin 128,
      (outsAt0 m c t.val t.isLt).2.2 (ix2 h w)
        = ((cntUpTo (xyArr m c) (batchOf t) h w (131072 * (t.val % 8 + 1)) : ℝ) : EReal) from H t.val t rfl h w
  intro n
  induction n using Nat.strong_induction_on with
  | _ n ih =>
    intro t htn h w
    by_cases h0 : t.val % 8 = 0
    · have h1 : ¬t.val % 8 = 7 := by omega
      rw [outsAt0_A m c t h0 h1]
      dsimp only
      rw [sout_A (F := Ideal) c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t)]
      refine block_count m c t (k0_pay1 (F := Ideal)) ?_ h w
      intro h' w'
      -- the reset accumulator is zero, the count of the points before the batch's first
      rw [pay1_apply, h0, Nat.mul_zero, cntUpTo_zero, Nat.cast_zero, EReal.coe_zero]
    · -- the point before is in the same batch, one block earlier
      have ih' : ∀ h w : Fin 128, (outsAt0 m c (t.val - 1) (Nat.lt_of_le_of_lt (Nat.sub_le _ _) t.isLt)).2.2 (ix2 h w)
          = ((cntUpTo (xyArr m c) (batchOf t) h w (131072 * (t.val % 8)) : ℝ) : EReal) := by
        intro h w
        have e := ih (t.val - 1) (by omega) (⟨t.val - 1, Nat.lt_of_le_of_lt (Nat.sub_le _ _) t.isLt⟩ : Fin cfg0.N) rfl h w
        have hb : batchOf (⟨t.val - 1, Nat.lt_of_le_of_lt (Nat.sub_le _ _) t.isLt⟩ : Fin cfg0.N) = batchOf t :=
          Fin.ext (by show (t.val - 1) / 8 = t.val / 8; omega)
        have hcnt : 131072 * ((t.val - 1) % 8 + 1) = 131072 * (t.val % 8) := by omega
        refine e.trans ?_
        rw [hb]
        show ((cntUpTo (xyArr m c) (batchOf t) h w (131072 * ((t.val - 1) % 8 + 1)) : ℝ) : EReal) = _
        rw [hcnt]
      by_cases h1 : t.val % 8 = 7
      · rw [outsAt0_C m c t h0 h1]
        dsimp only
        rw [sout_C (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t)
          (outsAt0 m c (t.val - 1) (Nat.lt_of_le_of_lt (Nat.sub_le _ _) t.isLt)).2.2]
        exact block_count m c t _ ih' h w
      · rw [outsAt0_B m c t h0 h1]
        dsimp only
        rw [sout_B (F := Ideal) c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t)
          (outsAt0 m c (t.val - 1) (Nat.lt_of_le_of_lt (Nat.sub_le _ _) t.isLt)).2.2]
        exact block_count m c t _ ih' h w

/-- The quantised block after point `t`: the input block quantised. -/
theorem qblock_after (c : Dev nD) (t : Fin cfg0.N) (y : S1x131072x2.Idx) :
    (outsAt0 m c t.val t.isLt).1 y = quant (iblk m c 0 t y) := by
  -- chunk by chunk the payload quantises the chunk's entries, which are the block's entries at the chunk's place
  have hG : ∀ (k : Fin k0_t1_loop.trips) (x : (chunkRect k).shape.Idx),
      k0_pay3 (F := Ideal) (chunk (iblk m c 0 t) k) x
        = (fun y : S1x131072x2.Idx => quant (iblk m c 0 t y)) ((chunkRect k).emb x) := by
    intro k x
    rw [pay3_apply, chunk_apply]
  by_cases h0 : t.val % 8 = 0
  · have h1 : ¬t.val % 8 = 7 := by omega
    rw [outsAt0_A m c t h0 h1]
    dsimp only
    exact congrFun (out1_A (F := Ideal) c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t)
      (fun y : S1x131072x2.Idx => quant (iblk m c 0 t y)) hG) y
  · by_cases h1 : t.val % 8 = 7
    · rw [outsAt0_C m c t h0 h1]
      dsimp only
      exact congrFun (out1_C (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t)
        (outsAt0 m c (t.val - 1) (Nat.lt_of_le_of_lt (Nat.sub_le _ _) t.isLt)).2.2
        (fun y : S1x131072x2.Idx => quant (iblk m c 0 t y)) hG) y
    · rw [outsAt0_B m c t h0 h1]
      dsimp only
      exact congrFun (out1_B (F := Ideal) c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t)
        (outsAt0 m c (t.val - 1) (Nat.lt_of_le_of_lt (Nat.sub_le _ _) t.isLt)).2.2
        (fun y : S1x131072x2.Idx => quant (iblk m c 0 t y)) hG) y

/-- The histogram block written at a batch's last point: the batch's counts as 32-bit integers. -/
theorem hblock_after (c : Dev nD) (t : Fin cfg0.N) (ht : t.val % 8 = 7) (h w : Fin 128) :
    (outsAt0 m c t.val t.isLt).2.1 (ix3 (0 : Fin 1) h w)
      = BitVec.ofNat 32 (cntUpTo (xyArr m c) (batchOf t) h w 1048576) := by
  have h0 : ¬t.val % 8 = 0 := by omega
  -- the accumulator after the batch's last block holds the whole batch's count
  have hs := scratch_after m c t h w
  rw [outsAt0_C m c t h0 ht] at hs ⊢
  dsimp only at hs ⊢
  rw [sout_C (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr ht) (iblk m c 0 t)
    (outsAt0 m c (t.val - 1) (Nat.lt_of_le_of_lt (Nat.sub_le _ _) t.isLt)).2.2] at hs
  rw [out2_C (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr ht) (iblk m c 0 t)
    (outsAt0 m c (t.val - 1) (Nat.lt_of_le_of_lt (Nat.sub_le _ _) t.isLt)).2.2, pay5_apply, hs, ht]
  -- 8 blocks of 131072 points are the batch's 1048576; a count of at most that many is below 2^31
  have hlen : 131072 * (7 + 1) = 1048576 := by norm_num
  rw [hlen]
  exact fptosi_natCast _ (lt_of_le_of_lt (cntUpTo_le (xyArr m c) (batchOf t) h w 1048576) (by norm_num))

end Cert.KernelIdeal.Pts

end
-- ==== Proof.KernelValue.lean ====
/-
  From blocks to arrays, at the ideal values: every grid point writes back its quantised block, and these blocks tile
  the first result, so the first result is the quantisation of the argument array; the histogram block is written back
  at each batch's last point, to the batch's own slab of the second result, so the second result is the histogram.
-/
import proofs.«100373_j446676598908_1_alg».proof.Proof.Points
import proofs.«100373_j446676598908_1_alg».proof.Proof.PatchI.Value
import Idealize.ShloMosaic.Lib.ValueIdx
import Idealize.ShloMosaic.Lib.Pipeline.Value

set_option maxRecDepth 16384

noncomputable section

namespace Cert.KernelIdeal.KVal

open Idealize.ShloMosaic Idealize.ShloMosaic.TcCoe Idealize.ShloMosaic.ValueIdx
open Idealize.SL.Sem
open Idealize.ShloMosaic.Pipeline (Dat)
open Cert.KernelIdeal Cert.KernelIdeal.Gen Cert.KernelIdeal.Value Cert.KernelIdeal.Pts Cert.Hist

variable (m : (ℓ : Loc nD τ sig) → Buf (Elt Ideal) ℓ) (ρ : Dev nD → PrngReg)

/-- The block index of the first result's window at grid point t is (t / 8, t % 8, 0): decided over the grid. -/
private theorem index_q : ∀ t : Fin cfg0.N, win0_1.index t (0 : Fin 3) = t.val / 8
    ∧ win0_1.index t (1 : Fin 3) = t.val % 8 ∧ win0_1.index t (2 : Fin 3) = 0 :=
  (by decide +kernel : ∀ t : Fin grid0.N, _)

/-- The block index of the second result's window at grid point t is (t / 8, 0, 0): decided over the grid. -/
private theorem index_h : ∀ t : Fin cfg0.N, win0_2.index t (0 : Fin 3) = t.val / 8
    ∧ win0_2.index t (1 : Fin 3) = 0 ∧ win0_2.index t (2 : Fin 3) = 0 :=
  (by decide +kernel : ∀ t : Fin grid0.N, _)

/-- An entry of the quantised block after point t is the quantisation of the argument's entry at batch t / 8,
    position 131072·(t % 8) + (the row inside the block), same coordinate. -/
private theorem qblock_at (c : Dev nD) (t : Fin cfg0.N) (y : S1x131072x2.Idx) (i : S16x1048576x2.Idx)
    (h0 : (i 0).val = t.val / 8) (h1 : (i 1).val = 131072 * (t.val % 8) + (y 1).val) (h2 : (i 2).val = (y 2).val) :
    (outsAt0 m c t.val t.isLt).1 y = Q (xyArr m c) i := by
  obtain ⟨a, r, cc, rfl⟩ : ∃ a r cc, y = ix3 a r cc := ⟨_, _, _, eq_ix3 y⟩
  rw [qblock_after, iblk_apply]
  show quant (xyArr m c _) = quant (xyArr m c i)
  refine congrArg (fun k => quant (xyArr m c k)) ?_
  funext d
  match d with
  | ⟨0, _⟩ => exact Fin.ext h0.symm
  | ⟨1, _⟩ => exact Fin.ext h1.symm
  | ⟨2, _⟩ => exact Fin.ext h2.symm

/-- What point t writes back to the first result is block t of the quantised argument array. -/
private theorem flushed_q (c : Dev nD) (t : Fin cfg0.N) :
    (dats m 0 c).flushed 1 t = ((cfg0.win 1).blk t).view.read (Elt Ideal) (Q (xyArr m c)) := by
  rw [Value.flushed1]
  obtain ⟨e0, e1, e2⟩ := index_q t
  funext y
  show (outsAt0 m c t.val t.isLt).1 ((cfg0.win 1).xinj (grid0.coords t) y)
    = Q (xyArr m c) (((cfg0.win 1).blk t).view.emb y)
  refine qblock_at m c t _ _ ?_ ?_ ?_
  · show win0_1.index t (0 : Fin 3) * 1 + 1 * (y 0).val = t.val / 8
    have hy : (y 0).val < 1 := (y 0).isLt
    omega
  · show win0_1.index t (1 : Fin 3) * 131072 + 1 * (y 1).val = 131072 * (t.val % 8) + (y 1).val
    omega
  · show win0_1.index t (2 : Fin 3) * 2 + 1 * (y 2).val = (y 2).val
    omega

/-- An index of the first result is in point t's block iff each coordinate is in the block's range on its axis. -/
private theorem mem_blk_q (t : Fin cfg0.N) (i : S16x1048576x2.Idx) :
    i ∈ ((cfg0.win 1).blk t).view.set ↔ ∀ a : Fin 3, win0_1.index t a * S1x131072x2.size a ≤ (i a).val
      ∧ (i a).val < win0_1.index t a * S1x131072x2.size a + S1x131072x2.size a := by
  show i ∈ ((View.whole main_v0_0).slice (win0_1.rect t)).set ↔ _
  rw [View.set_slice_whole, Rect.mem_set_unit]
  exact Iff.rfl

/-- Index (b, n, cc) of the first result lies in the block of grid point 8·b + n / 131072. -/
private theorem cover_q (i : S16x1048576x2.Idx) :
    ∃ t : Fin cfg0.N, (cfg0.win 1).flush t = true ∧ i ∈ ((cfg0.win 1).blk t).view.set := by
  have hi0 : (i 0).val < 16 := (i 0).isLt
  have hi1 : (i 1).val < 1048576 := (i 1).isLt
  have hi2 : (i 2).val < 2 := (i 2).isLt
  let t : Fin cfg0.N := ⟨8 * (i 0).val + (i 1).val / 131072, lt_of_lt_of_eq (by omega) N_eq.symm⟩
  have htv : t.val = 8 * (i 0).val + (i 1).val / 131072 := rfl
  obtain ⟨e0, e1, e2⟩ := index_q t
  refine ⟨t, flush0_1 t, ?_⟩
  rw [mem_blk_q]
  intro a
  match a with
  | ⟨0, _⟩ =>
    show win0_1.index t (0 : Fin 3) * 1 ≤ (i 0).val ∧ (i 0).val < win0_1.index t (0 : Fin 3) * 1 + 1
    omega
  | ⟨1, _⟩ =>
    show win0_1.index t (1 : Fin 3) * 131072 ≤ (i 1).val ∧ (i 1).val < win0_1.index t (1 : Fin 3) * 131072 + 131072
    omega
  | ⟨2, _⟩ =>
    show win0_1.index t (2 : Fin 3) * 2 ≤ (i 2).val ∧ (i 2).val < win0_1.index t (2 : Fin 3) * 2 + 2
    omega

/-- The first result after the run: the argument array quantised. -/
theorem final1 (c : Dev nD) : (dats m 0 c).arrAt 1 cfg0.N = Q (xyArr m c) :=
  (dats m 0 c).arrAt_eq_of_cover 1 (Q (xyArr m c)) (fun t _ => flushed_q m c t) cover_q

/-- An entry of the histogram block written at a batch's last point is the histogram's entry at batch t / 8, same voxel. -/
private theorem hblock_at (c : Dev nD) (t : Fin cfg0.N) (ht : t.val % 8 = 7) (y : S1x128x128.Idx) (j : S16x128x128.Idx)
    (h0 : (j 0).val = t.val / 8) (h1 : (j 1).val = (y 1).val) (h2 : (j 2).val = (y 2).val) :
    (outsAt0 m c t.val t.isLt).2.1 y = Hist (xyArr m c) j := by
  obtain ⟨a, h, w, rfl⟩ : ∃ a h w, y = ix3 a h w := ⟨_, _, _, eq_ix3 y⟩
  obtain rfl : a = 0 := Subsingleton.elim a 0
  obtain ⟨b, h', w', rfl⟩ : ∃ b h' w', j = ix3 b h' w' := ⟨_, _, _, eq_ix3 j⟩
  obtain rfl : b = batchOf t := Fin.ext h0
  obtain rfl : h' = h := Fin.ext h1
  obtain rfl : w' = w := Fin.ext h2
  rw [hblock_after m c t ht, Hist_apply]

/-- What a batch's last point writes back to the second result is its block of the histogram. -/
private theorem flushed_h (c : Dev nD) (t : Fin cfg0.N) (hf : (cfg0.win 2).flush t = true) :
    (dats m 0 c).flushed 2 t = ((cfg0.win 2).blk t).view.read (Elt Ideal) (Hist (xyArr m c)) := by
  have ht : t.val % 8 = 7 := (flush0_2 t).mp hf
  rw [Value.flushed2]
  obtain ⟨e0, e1, e2⟩ := index_h t
  funext y
  show (outsAt0 m c t.val t.isLt).2.1 ((cfg0.win 2).xinj (grid0.coords t) y)
    = Hist (xyArr m c) (((cfg0.win 2).blk t).view.emb y)
  refine hblock_at m c t ht _ _ ?_ ?_ ?_
  · show win0_2.index t (0 : Fin 3) * 1 + 1 * (y 0).val = t.val / 8
    have hy : (y 0).val < 1 := (y 0).isLt
    omega
  · show win0_2.index t (1 : Fin 3) * 128 + 1 * (y 1).val = (y 1).val
    omega
  · show win0_2.index t (2 : Fin 3) * 128 + 1 * (y 2).val = (y 2).val
    omega

/-- An index of the second result is in point t's block iff each coordinate is in the block's range on its axis. -/
private theorem mem_blk_h (t : Fin cfg0.N) (j : S16x128x128.Idx) :
    j ∈ ((cfg0.win 2).blk t).view.set ↔ ∀ a : Fin 3, win0_2.index t a * S1x128x128.size a ≤ (j a).val
      ∧ (j a).val < win0_2.index t a * S1x128x128.size a + S1x128x128.size a := by
  show j ∈ ((View.whole main_v0_1).slice (win0_2.rect t)).set ↔ _
  rw [View.set_slice_whole, Rect.mem_set_unit]
  exact Iff.rfl

/-- Index (b, h, w) of the second result lies in the block of batch b's last grid point 8·b + 7, which writes back. -/
private theorem cover_h (j : S16x128x128.Idx) :
    ∃ t : Fin cfg0.N, (cfg0.win 2).flush t = true ∧ j ∈ ((cfg0.win 2).blk t).view.set := by
  have hj0 : (j 0).val < 16 := (j 0).isLt
  have hj1 : (j 1).val < 128 := (j 1).isLt
  have hj2 : (j 2).val < 128 := (j 2).isLt
  let t : Fin cfg0.N := ⟨8 * (j 0).val + 7, lt_of_lt_of_eq (by omega) N_eq.symm⟩
  have htv : t.val = 8 * (j 0).val + 7 := rfl
  obtain ⟨e0, e1, e2⟩ := index_h t
  refine ⟨t, (flush0_2 t).mpr (by omega), ?_⟩
  rw [mem_blk_h]
  intro a
  match a with
  | ⟨0, _⟩ =>
    show win0_2.index t (0 : Fin 3) * 1 ≤ (j 0).val ∧ (j 0).val < win0_2.index t (0 : Fin 3) * 1 + 1
    omega
  | ⟨1, _⟩ =>
    show win0_2.index t (1 : Fin 3) * 128 ≤ (j 1).val ∧ (j 1).val < win0_2.index t (1 : Fin 3) * 128 + 128
    omega
  | ⟨2, _⟩ =>
    show win0_2.index t (2 : Fin 3) * 128 ≤ (j 2).val ∧ (j 2).val < win0_2.index t (2 : Fin 3) * 128 + 128
    omega

/-- The second result after the run: the histogram of the argument array. -/
theorem final2 (c : Dev nD) : (dats m 0 c).arrAt 2 cfg0.N = Hist (xyArr m c) :=
  (dats m 0 c).arrAt_eq_of_cover 2 (Hist (xyArr m c)) (flushed_h m c) cover_h

/-- The idealized kernel's run with both results named as functions of the argument array, the argument unchanged. -/
theorem run : θ_run defs (onTc (τ := τ) (main (F := Ideal))) ⟨m, fun _ => 0, ρ⟩ fun r => ∀ c : Dev nD,
      r.2.mem ((c : Thread nD τ).loc main_v0_0) = Q (m ((c : Thread nD τ).loc main_arg0))
      ∧ r.2.mem ((c : Thread nD τ).loc main_v0_1) = Hist (m ((c : Thread nD τ).loc main_arg0))
      ∧ r.2.mem ((c : Thread nD τ).loc main_arg0) = m ((c : Thread nD τ).loc main_arg0) :=
  (θ_run defs _ _).mono (fun r h c => ⟨(h c).1.trans (final1 m c), (h c).2.1.trans (final2 m c), (h c).2.2⟩)
    (run_blocks m ρ)

end Cert.KernelIdeal.KVal

end
-- ==== Proof.RefScatter.lean ====
/-
  An integer scatter that adds the constant one: the result at an index is the operand there plus the NUMBER of updates
  whose scatter index lands on it; and, for a one-axis operand scattered into through one index word per update, an
  update lands on position `i` exactly when its index word, read signed, is `i`.
-/
import Idealize.ShloMosaic.Lib.ValueIdx
import Idealize.ShloMosaic.PureOps

noncomputable section

open scoped BigOperators

namespace Cert.Hist

open Idealize.ShloMosaic Idealize.ShloMosaic.ValueIdx

/-- Folding "add one at the landing position" over a list of updates adds, at each position, the number of listed updates landing there. -/
private theorem foldl_addi_ones {α : Type} {s : Shape} (g : α → Option s.Idx) (l : List α)
    (x : s.Idx → BitVec 32) (i : s.Idx) :
    (l.foldl (fun r n =>
        match g n with
        | some k => fun i' => if i' = k then IntOp.addi (r k) 1#32 else r i'
        | none => r) x) i
      = x i + BitVec.ofNat 32 (l.filter fun n => decide (g n = some i)).length := by
  induction l generalizing x with
  | nil => simp
  | cons n l ih =>
    rw [List.foldl_cons, ih]
    rcases hg : g n with _ | k
    · simp [hg]
    · by_cases hk : k = i
      · subst hk
        simp [hg, IntOp.addi, BitVec.ofNat_add]
        ac_rfl
      · have hk' : ¬ i = k := fun h => hk h.symm
        simp [hg, hk, hk']

/-- The fold of "add one where the update lands" over all updates: every entry gains the number of updates landing on it. -/
theorem scatter_addi_ones {s si u : Shape} {w : ℕ} (d : ScatterDims s si u) (x : s.Idx → BitVec 32) (idx : IVec si w)
    (i : s.Idx) :
    Host.scatter d IntOp.addi x idx (fun _ => 1#32) i
      = x i + BitVec.ofNat 32 (Finset.univ.filter fun j : u.Idx => d.resultIdx? j idx = some i).card := by
  refine (foldl_addi_ones (fun n => d.resultIdx? (u.rowMajor.symm n) idx) (List.finRange u.numel) x i).trans ?_
  congr 2
  rw [← List.toFinset_card_of_nodup ((List.nodup_finRange _).filter _)]
  refine Finset.card_bij (fun n _ => u.rowMajor.symm n) ?_ ?_ ?_
  · intro n hn
    simpa using hn
  · intro a _ b _ h
    exact u.rowMajor.symm.injective h
  · intro j hj
    refine ⟨u.rowMajor j, ?_, by simp⟩
    simpa using hj

/-- A one-axis index built from a coordinate has that coordinate on its only axis. -/
private theorem ix1_val {N : ℕ} (n : Fin N) (a : Fin (⟨1, ![N]⟩ : Shape).rank) : ((ix1 n a : Fin _) : ℕ) = n := by
  match a with | ⟨0, _⟩ => rfl

/-- With the index vector on axis 1 and the one index component sent to operand axis 0, the start of update `n`'s window
    on the operand's only axis is its index word at `(n, 0)`, read signed. -/
private theorem start_flat {N M : ℕ} (d : ScatterDims ⟨1, ![M]⟩ ⟨2, ![N, 1]⟩ ⟨1, ![N]⟩)
    (hs : d.scatterDimsToOperandDims = [0])
    (hv : d.indexVectorDim = 1) (idx : IVec ⟨2, ![N, 1]⟩ 32) (n : Fin N) (a : Fin 1) :
    d.start (ix1 n) idx a = (idx (ix2 n 0)).toInt := by
  obtain rfl : a = 0 := Subsingleton.elim _ _
  have ha : (0 : Fin 1) ∈ d.scatterDimsToOperandDims := by rw [hs]; simp
  unfold ScatterDims.start
  rw [dif_pos ha]
  congr 2
  funext b
  apply Fin.ext
  match b with
  | ⟨0, _⟩ =>
    have hb : ¬ ((⟨0, by decide⟩ : Fin 2).val = d.indexVectorDim) := by rw [hv]; decide
    unfold ScatterDims.siIdx
    rw [dif_neg hb]
    unfold ScatterDims.siCoord
    simp only [Fin.coe_cast]
    exact ix1_val n _
  | ⟨1, _⟩ =>
    have hb : (⟨1, by decide⟩ : Fin 2).val = d.indexVectorDim := by rw [hv]
    unfold ScatterDims.siIdx
    rw [dif_pos hb]
    show List.idxOf 0 d.scatterDimsToOperandDims = 0
    rw [hs]; simp

/-- The operand's only axis is an inserted window axis, so every window coordinate on it is zero. -/
private theorem window_flat {N M : ℕ} (d : ScatterDims ⟨1, ![M]⟩ ⟨2, ![N, 1]⟩ ⟨1, ![N]⟩)
    (hi : d.insertedWindowDims = [0]) (j : (⟨1, ![N]⟩ : Shape).Idx) (a : Fin 1) :
    d.window j a = 0 := by
  obtain rfl : a = 0 := Subsingleton.elim _ _
  have ha : (0 : Fin 1) ∉ d.sKept := by
    simp [ScatterDims.sKept, Shape.kept, hi]
  unfold ScatterDims.window
  rw [dif_neg ha]

/-- One index word per update into a one-axis operand: update `n` lands at its index word read signed, when that is a
    position of the operand, and is dropped otherwise. -/
theorem resultIdx?_flat {N M : ℕ} (d : ScatterDims ⟨1, ![M]⟩ ⟨2, ![N, 1]⟩ ⟨1, ![N]⟩)
    (hu : d.updateWindowDims = []) (hi : d.insertedWindowDims = [0]) (hs : d.scatterDimsToOperandDims = [0])
    (hv : d.indexVectorDim = 1) (idx : IVec ⟨2, ![N, 1]⟩ 32) (n : Fin N) :
    d.resultIdx? (ix1 n) idx
      = if h : 0 ≤ (idx (ix2 n 0)).toInt ∧ (idx (ix2 n 0)).toInt < (M : ℤ) then
          some (ix1 ⟨(idx (ix2 n 0)).toInt.toNat, by omega⟩)
        else none := by
  have hst := start_flat d hs hv idx n
  have hwi := window_flat d hi (ix1 n)
  unfold ScatterDims.resultIdx?
  by_cases hc : 0 ≤ (idx (ix2 n 0)).toInt ∧ (idx (ix2 n 0)).toInt < (M : ℤ)
  · have hall : ∀ a : Fin (⟨1, ![M]⟩ : Shape).rank,
        0 ≤ d.start (ix1 n) idx a + (d.window (ix1 n) a : ℤ)
          ∧ d.start (ix1 n) idx a + (d.window (ix1 n) a : ℤ) < ((⟨1, ![M]⟩ : Shape).size a : ℤ) := by
      intro a
      obtain rfl : a = 0 := Subsingleton.elim _ _
      rw [hst, hwi]; simpa using hc
    rw [dif_pos hall, dif_pos hc]
    congr 1
    funext a
    apply Fin.ext
    match a with
    | ⟨0, _⟩ =>
      show (d.start (ix1 n) idx _ + (d.window (ix1 n) _ : ℤ)).toNat = _
      rw [hst, hwi]; simp
  · have hall : ¬ ∀ a : Fin (⟨1, ![M]⟩ : Shape).rank,
        0 ≤ d.start (ix1 n) idx a + (d.window (ix1 n) a : ℤ)
          ∧ d.start (ix1 n) idx a + (d.window (ix1 n) a : ℤ) < ((⟨1, ![M]⟩ : Shape).size a : ℤ) := by
      intro h
      have h0 := h 0
      rw [hst, hwi] at h0
      exact hc (by simpa using h0)
    rw [dif_neg hall, dif_neg hc]

/-- The landing position of update `n` is position `i` exactly when its index word, read signed, is `i`. -/
private theorem resultIdx?_flat_iff {N M : ℕ} (d : ScatterDims ⟨1, ![M]⟩ ⟨2, ![N, 1]⟩ ⟨1, ![N]⟩)
    (hu : d.updateWindowDims = []) (hi : d.insertedWindowDims = [0]) (hs : d.scatterDimsToOperandDims = [0])
    (hv : d.indexVectorDim = 1) (idx : IVec ⟨2, ![N, 1]⟩ 32) (n : Fin N) (i : Fin M) :
    d.resultIdx? (ix1 n) idx = some (ix1 i) ↔ (idx (ix2 n 0)).toInt = (i.val : ℤ) := by
  rw [resultIdx?_flat d hu hi hs hv]
  have hiM := i.isLt
  split_ifs with h
  · constructor
    · intro e
      have e0 := congrArg Fin.val (congrFun (Option.some.inj e) 0)
      have e1 : (idx (ix2 n 0)).toInt.toNat = i.val := e0
      omega
    · intro e
      congr 2
      apply Fin.ext
      show (idx (ix2 n 0)).toInt.toNat = i.val
      omega
  · constructor
    · intro e
      exact absurd e (by simp)
    · intro e
      exact absurd ⟨by omega, by omega⟩ h

/-- So scattering ones into zeros counts, at each position, the updates whose index word is that position. -/
theorem scatter_count_flat {N M : ℕ} (d : ScatterDims ⟨1, ![M]⟩ ⟨2, ![N, 1]⟩ ⟨1, ![N]⟩)
    (hu : d.updateWindowDims = []) (hi : d.insertedWindowDims = [0]) (hs : d.scatterDimsToOperandDims = [0])
    (hv : d.indexVectorDim = 1) (idx : IVec ⟨2, ![N, 1]⟩ 32) (i : Fin M) :
    Host.scatter d IntOp.addi (fun _ => 0#32) idx (fun _ => 1#32) (ix1 i)
      = BitVec.ofNat 32 (Finset.univ.filter fun n : Fin N => (idx (ix2 n 0)).toInt = (i.val : ℤ)).card := by
  rw [scatter_addi_ones]
  show 0#32 + _ = _
  rw [BitVec.zero_add]
  congr 1
  symm
  refine Finset.card_bij (fun n _ => ix1 n) ?_ ?_ ?_
  · intro n hn
    exact Finset.mem_filter.2 ⟨Finset.mem_univ _,
      (resultIdx?_flat_iff d hu hi hs hv idx n i).2 (Finset.mem_filter.1 hn).2⟩
  · intro a _ b _ h
    exact congrFun h 0
  · intro j hj
    have h := (Finset.mem_filter.1 hj).2
    rw [eq_ix1 j] at h
    exact ⟨j 0, Finset.mem_filter.2 ⟨Finset.mem_univ _, (resultIdx?_flat_iff d hu hi hs hv idx _ i).1 h⟩,
      (eq_ix1 j).symm⟩

end Cert.Hist

end
-- ==== Proof.RefValue.lean ====
/-
  The reference's two results as functions of the argument array: the first is the quantisation of every entry; the
  second, when every quantised coordinate is a voxel coordinate (below 128), is the histogram: the flattened index
  x + 128·y + 16384·b of a point is then a position of the flat grid without wrap-around, it is never negative, and it
  equals the position of voxel (b, h, w) exactly when the point is in batch b with y = h and x = w; so the scatter of
  ones counts, at that position, the points of batch b that fall in the voxel.
-/
import proofs.«100373_j446676598908_1_alg».proof.Proof.Gen.ReferenceIdeal.Read
import proofs.«100373_j446676598908_1_alg».proof.Proof.Spec
import proofs.«100373_j446676598908_1_alg».proof.Proof.RefScatter
import Idealize.ShloMosaic.Lib.ValueIdx
import Idealize.ShloMosaic.Lib.Pipeline.Value

noncomputable section

namespace Cert.ReferenceIdeal.RefValue

open Idealize.ShloMosaic Idealize.ShloMosaic.ValueIdx
open Cert.ReferenceIdeal Cert.ReferenceIdeal.Gen Cert.ReferenceIdeal.Read Cert.Hist

/-- The reference's first result is the quantisation of every entry. -/
theorem ref_q (x0 : (⟨S16x1048576x2, .f32⟩ : BufTy).Contents (Elt Ideal)) :
    val_main_v2 (F := Ideal) x0 = Q x0 := by
  funext i
  rw [val_main_v2_apply, val_main_v1_apply, val_main_v0_apply, val_main_cst_apply]
  rfl

/-- The batch of flat point position `n`: its quotient by the number of points of a batch. -/
private def bOf (n : Fin 16777216) : Fin 16 := ⟨n.val / 1048576, by have := n.isLt; omega⟩

/-- The position of flat point `n` inside its batch: the remainder. -/
private def pOf (n : Fin 16777216) : Fin 1048576 := ⟨n.val % 1048576, by have := n.isLt; omega⟩

/-- The two reshapes and the slice of coordinate 0 read the quantised array at (batch, position, 0). -/
private theorem idx_x (n : Fin 16777216) :
    idx_main_v3 (idx_main_v4 (idx_main_v5 (ix1 n))) = ix3 (bOf n) (pOf n) 0 := by
  have hn := n.isLt
  funext a
  match a with
  | ⟨0, _⟩ => exact Fin.ext (by show (n.val / 1048576 * 1048576 + n.val % 1048576) / 1048576 = n.val / 1048576; omega)
  | ⟨1, _⟩ => exact Fin.ext (by show (n.val / 1048576 * 1048576 + n.val % 1048576) / 1 % 1048576 = n.val % 1048576; omega)
  | ⟨2, _⟩ => exact Fin.ext (by show 0 = 0; rfl)

/-- The two reshapes and the slice of coordinate 1 read the quantised array at (batch, position, 1). -/
private theorem idx_y (n : Fin 16777216) :
    idx_main_v6 (idx_main_v7 (idx_main_v8 (ix1 n))) = ix3 (bOf n) (pOf n) 1 := by
  have hn := n.isLt
  funext a
  match a with
  | ⟨0, _⟩ => exact Fin.ext (by show (n.val / 1048576 * 1048576 + n.val % 1048576) / 1048576 = n.val / 1048576; omega)
  | ⟨1, _⟩ => exact Fin.ext (by show (n.val / 1048576 * 1048576 + n.val % 1048576) / 1 % 1048576 = n.val % 1048576; omega)
  | ⟨2, _⟩ => exact Fin.ext (by show 1 + 0 = 1; rfl)

/-- The flattened index of point `n` before the sign test: x + 128·y + 16384·batch in 32-bit arithmetic. -/
private theorem v17_at (x0 : (⟨S16x1048576x2, .f32⟩ : BufTy).Contents (Elt Ideal)) (n : Fin 16777216) :
    val_main_v17 (F := Ideal) x0 (ix1 n)
      = Q x0 (ix3 (bOf n) (pOf n) 0) + 128#32 * Q x0 (ix3 (bOf n) (pOf n) 1)
          + 16384#32 * BitVec.ofNat 32 (bOf n).val := by
  rw [val_main_v17_apply, val_main_v14_apply, val_main_v13_apply, val_main_v16_apply, val_main_v12_apply,
    val_main_c_apply, val_main_v15_apply, val_main_c_0_apply, val_main_v11_apply, val_main_v10_apply,
    val_main_v9_apply, val_main_v5_apply, val_main_v4_apply, val_main_v3_apply, val_main_v8_apply,
    val_main_v7_apply, val_main_v6_apply, ref_q, idx_x, idx_y]
  rfl

/-- No wrap-around: with both coordinates below 128 and the batch below 16, the 32-bit sum is the sum of naturals. -/
private theorem flat_toNat (x y : BitVec 32) (bb : ℕ) (hx : x.toNat < 128) (hy : y.toNat < 128) (hb : bb < 16) :
    (x + 128#32 * y + 16384#32 * BitVec.ofNat 32 bb).toNat = x.toNat + 128 * y.toNat + 16384 * bb := by
  simp only [BitVec.toNat_add, BitVec.toNat_mul, BitVec.toNat_ofNat]
  omega

/-- A word below 2^31 is not negative when read signed, so the sign test keeps it. -/
private theorem sel_keep (v : BitVec 32) (hv : v.toNat < 2 ^ 31) :
    Scalar.select (IntOp.cmpi .slt v 0#32) (IntOp.addi v 262144#32) v = v := by
  have hs : v.slt 0#32 = false := by
    rw [BitVec.slt, BitVec.toInt_eq_toNat_of_lt (by omega), BitVec.toInt_zero]
    exact decide_eq_false (by omega)
  have hc : IntOp.cmpi .slt v 0#32 = 0#1 := by
    show BitVec.ofBool (v.slt 0#32) = 0#1
    rw [hs]; rfl
  rw [hc, select_zero]

/-- The index word of update `n`, read signed, is the natural number x + 128·y + 16384·batch. -/
private theorem word_at (x0 : (⟨S16x1048576x2, .f32⟩ : BufTy).Contents (Elt Ideal))
    (hq : ∀ i, (Q x0 i).toNat < 128) (n : Fin 16777216) :
    (val_main_v24 (F := Ideal) x0 (ix2 n 0)).toInt
      = (((Q x0 (ix3 (bOf n) (pOf n) 0)).toNat + 128 * (Q x0 (ix3 (bOf n) (pOf n) 1)).toNat
            + 16384 * (bOf n).val : ℕ) : ℤ) := by
  have hi : idx_main_v24 (ix2 n 0) = ix1 n := by
    funext a
    match a with
    | ⟨0, _⟩ => rfl
  have hx := hq (ix3 (bOf n) (pOf n) 0)
  have hy := hq (ix3 (bOf n) (pOf n) 1)
  have hb := (bOf n).isLt
  have hN := flat_toNat _ _ _ hx hy hb
  rw [val_main_v24_apply, hi, val_main_v23_apply, val_main_v20_apply, val_main_v22_apply, val_main_v19_apply,
    val_main_c_2_apply, val_main_v21_apply, val_main_c_3_apply, v17_at, sel_keep _ (by rw [hN]; omega),
    BitVec.toInt_eq_toNat_of_lt (by rw [hN]; omega), hN]

/-- The updates whose index word is the flat position of voxel (b, h, w) are, through n = b·1048576 + p, the points p
    of batch b that fall in the voxel: the digits of x + 128·y + 16384·batch in the mixed radix (128, 128, 16) are unique. -/
private theorem card_word (x0 : (⟨S16x1048576x2, .f32⟩ : BufTy).Contents (Elt Ideal))
    (hq : ∀ i, (Q x0 i).toNat < 128) (b : Fin 16) (h w : Fin 128) :
    (Finset.univ.filter fun n : Fin 16777216 =>
        (val_main_v24 (F := Ideal) x0 (ix2 n 0)).toInt = (((b.val * 128 + h.val) * 128 + w.val : ℕ) : ℤ)).card
      = cntUpTo x0 b h w 1048576 := by
  have hbl := b.isLt
  have hhl := h.isLt
  have hwl := w.isLt
  unfold cntUpTo
  symm
  refine Finset.card_bij (fun p _ => (⟨b.val * 1048576 + p.val, by have := p.isLt; omega⟩ : Fin 16777216)) ?_ ?_ ?_
  · -- a point of batch b in the voxel has the voxel's flat position as its index word
    intro p hp
    have hpl := p.isLt
    simp only [Finset.mem_filter, Finset.mem_univ, true_and] at hp ⊢
    obtain ⟨_, hy, hx⟩ := hp
    have hb' : bOf ⟨b.val * 1048576 + p.val, by omega⟩ = b :=
      Fin.ext (by show (b.val * 1048576 + p.val) / 1048576 = b.val; omega)
    have hp' : pOf ⟨b.val * 1048576 + p.val, by omega⟩ = p :=
      Fin.ext (by show (b.val * 1048576 + p.val) % 1048576 = p.val; omega)
    have hx' : (Q x0 (ix3 b p 0)).toNat = w.val := by
      show (quant (x0 (ix3 b p 0))).toNat = w.val
      rw [hx, BitVec.toNat_ofNat]; omega
    have hy' : (Q x0 (ix3 b p 1)).toNat = h.val := by
      show (quant (x0 (ix3 b p 1))).toNat = h.val
      rw [hy, BitVec.toNat_ofNat]; omega
    rw [word_at x0 hq, hb', hp', hx', hy']
    exact congrArg Nat.cast (by omega)
  · -- p is recovered from b·1048576 + p
    intro p₁ _ p₂ _ he
    have := congrArg Fin.val he
    simp only at this
    exact Fin.ext (by omega)
  · -- an update with that index word lies in batch b, at a position whose point falls in the voxel
    intro n hn
    have hnl := n.isLt
    simp only [Finset.mem_filter, Finset.mem_univ, true_and] at hn
    rw [word_at x0 hq] at hn
    have hx := hq (ix3 (bOf n) (pOf n) 0)
    have hy := hq (ix3 (bOf n) (pOf n) 1)
    have hbn := (bOf n).isLt
    have hn' := Int.ofNat.inj hn
    have e_b : (bOf n).val = b.val := by omega
    have e_y : (Q x0 (ix3 (bOf n) (pOf n) 1)).toNat = h.val := by omega
    have e_x : (Q x0 (ix3 (bOf n) (pOf n) 0)).toNat = w.val := by omega
    have hb' : bOf n = b := Fin.ext e_b
    rw [hb'] at e_x e_y
    refine ⟨pOf n, ?_, ?_⟩
    · simp only [Finset.mem_filter, Finset.mem_univ, true_and]
      refine ⟨(pOf n).isLt, ?_, ?_⟩
      · show quant (x0 (ix3 b (pOf n) 1)) = BitVec.ofNat 32 h.val
        apply BitVec.eq_of_toNat_eq
        rw [BitVec.toNat_ofNat]
        have : (quant (x0 (ix3 b (pOf n) 1))).toNat = h.val := e_y
        omega
      · show quant (x0 (ix3 b (pOf n) 0)) = BitVec.ofNat 32 w.val
        apply BitVec.eq_of_toNat_eq
        rw [BitVec.toNat_ofNat]
        have : (quant (x0 (ix3 b (pOf n) 0))).toNat = w.val := e_x
        omega
    · apply Fin.ext
      show b.val * 1048576 + n.val % 1048576 = n.val
      have : n.val / 1048576 = b.val := e_b
      omega

/-- The reference's second result is the histogram, when every quantised coordinate is a voxel coordinate. -/
theorem ref_hist (x0 : (⟨S16x1048576x2, .f32⟩ : BufTy).Contents (Elt Ideal)) (hq : ∀ i, (Q x0 i).toNat < 128) :
    val_main_v27 (F := Ideal) x0 = Hist x0 := by
  funext j
  obtain ⟨b, h, w, rfl⟩ : ∃ b h w, j = ix3 b h w := ⟨_, _, _, eq_ix3 j⟩
  have hbl := b.isLt
  have hhl := h.isLt
  have hwl := w.isLt
  -- the reshape reads the scatter's result at the voxel's flat position
  have hi : idx_main_v27 (ix3 b h w) = ix1 (⟨(b.val * 128 + h.val) * 128 + w.val, by omega⟩ : Fin 262144) := by
    funext a
    match a with
    | ⟨0, _⟩ => rfl
  -- the scatter adds ones into zeros
  have h18 : val_main_v18 (F := Ideal) = fun _ => 0#32 := by
    funext i; rw [val_main_v18_apply, val_main_c_1_apply]
  have h25 : val_main_v25 (F := Ideal) = fun _ => 1#32 := by
    funext i; rw [val_main_v25_apply, val_main_c_4_apply]
  rw [Hist_apply, val_main_v27_apply, hi]
  unfold val_main_v26
  rw [h18, h25, scatter_count_flat _ rfl rfl rfl rfl, card_word x0 hq]

end Cert.ReferenceIdeal.RefValue

end
-- ==== Proof.Pre.lean ====
/-
  What the precondition says of the quantised coordinates: every one of them is a voxel coordinate, at least 0 and
  below 128 (read signed), so as an unsigned number it is below 128.
-/
import proofs.«100373_j446676598908_1_alg».proof.Pre_finite_inputs
import proofs.«100373_j446676598908_1_alg».proof.Proof.Spec
import Idealize.ShloMosaic.Lib.ReduceAll
import Idealize.ShloMosaic.Lib.StableHlo.Predicate
import Idealize.ShloMosaic.Lib.ValueIdx

noncomputable section

namespace Cert.Hist

open Idealize.ShloMosaic Idealize.ShloMosaic.ValueIdx

/-- Under the precondition every quantised coordinate is below 128 as an unsigned number. -/
theorem quant_range_of_pre [Cert.Pre_finite_inputs.Facts] (x0 : FVec Ideal Cert.Pre_finite_inputs.S16x1048576x2 .f32)
    (h : Cert.Pre_finite_inputs.fn (F := Ideal) x0 = fun _ => 1#1) :
    ∀ i, (Q x0 i).toNat < 128 := by
  intro i
  -- the predicate's result has a single index
  haveI : Subsingleton Cert.Pre_finite_inputs.S_.Idx := ⟨fun a b => funext fun d => d.elim0⟩
  have h0 := congrFun h ValueIdx.ix0
  dsimp only [Cert.Pre_finite_inputs.fn] at h0
  -- the outer conjunction: keep the range test, a reduction by "and" over every entry
  obtain ⟨-, h2⟩ := IntOp.andi_eq_one.1 h0
  -- the reduction came out 1, so the tested bit is 1 at entry i; it is itself a conjunction of two comparisons
  have h3 := Host.reduce_andi_all _ _ _ _ _ h2 i
  obtain ⟨hge, hlt⟩ := IntOp.andi_eq_one.1 h3
  -- at entry i the compared word is the quantised coordinate, the bounds are the broadcast constants 0 and 128
  change IntOp.cmpi .sge (Q x0 i) 0#32 = 1#1 at hge
  change IntOp.cmpi .slt (Q x0 i) 128#32 = 1#1 at hlt
  rw [IntOp.cmpi_sge] at hge
  rw [IntOp.cmpi_slt] at hlt
  have e0 : (0#32 : BitVec 32).toInt = 0 := by decide
  have e128 : (128#32 : BitVec 32).toInt = 128 := by decide
  rw [e0] at hge
  rw [e128] at hlt
  -- a signed value in [0, 128) has its top bit clear, so it is the unsigned value
  rw [BitVec.toInt_eq_toNat_cond] at hge hlt
  split at hge <;> omega

end Cert.Hist

end
-- ==== Proof.lean ====
/-
  The certificate of a histogram kernel against its scatter-add reference, over the extended reals.

  Both programs quantise every coordinate of every point (scale by 127, truncate toward zero): the first result. The
  second result is a histogram over a 128 × 128 grid per batch. The kernel builds it as a sum, over the points, of
  products of two one-hot rows (the point's quantised second coordinate against 0 … 127, its first against 0 … 127),
  accumulated chunk by chunk and block by block in an f32 accumulator that is exact at the ideal values, and converts
  the total to a 32-bit integer: entry (b, h, w) is the number of points of batch b whose quantised coordinates are
  (w, h). The reference adds one at the flattened position x + 128·y + 16384·b of every point. Under the precondition
  (every quantised coordinate is a voxel coordinate, 0 ≤ q < 128) that position is in range, not negative, and names
  voxel (b, y, x) uniquely, so the reference's entry is the same count. Both sides are compared with one specification
  (`Cert.Hist.Q`, `Cert.Hist.Hist`).
-/
import proofs.«100373_j446676598908_1_alg».proof.Defs
import proofs.«100373_j446676598908_1_alg».proof.Proof.Gen.Kernel
import proofs.«100373_j446676598908_1_alg».proof.Proof.Gen.KernelIdeal
import proofs.«100373_j446676598908_1_alg».proof.Proof.Gen.ReferenceIdeal
import proofs.«100373_j446676598908_1_alg».proof.Proof.Gen.Pre_finite_inputs
import proofs.«100373_j446676598908_1_alg».proof.Proof.Gen.ReferenceIdeal.Run
import proofs.«100373_j446676598908_1_alg».proof.Proof.Gen.ReferenceIdeal.Read
import proofs.«100373_j446676598908_1_alg».proof.Proof.PatchK.Frame
import proofs.«100373_j446676598908_1_alg».proof.Proof.PatchI.Frame
import proofs.«100373_j446676598908_1_alg».proof.Proof.KernelValue
import proofs.«100373_j446676598908_1_alg».proof.Proof.RefValue
import proofs.«100373_j446676598908_1_alg».proof.Proof.Pre
import Idealize.ShloMosaic.Adequacy
import Idealize.ShloMosaic.Init

noncomputable section

namespace Cert.Proof

open Idealize.ShloMosaic Idealize.ShloMosaic.TcCoe Idealize.SL.Sem

/-- The word-level kernel terminates without a fault and keeps its argument. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference is host operations only: its run, with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both programs end with the quantised array and the histogram of the same argument array. -/
theorem algebraic : Cert.algebraic_KernelIdeal_ReferenceIdeal := by
  intro m ρ m' ρ' hpre hagree
  refine ⟨fun c => Cert.Hist.Q (m ((c.tc : Thread Cert.KernelIdeal.nD Cert.KernelIdeal.τ).loc Cert.KernelIdeal.main_arg0)),
    fun c => Cert.Hist.Hist (m ((c.tc : Thread Cert.KernelIdeal.nD Cert.KernelIdeal.τ).loc Cert.KernelIdeal.main_arg0)),
    Cert.KernelIdeal.KVal.run m ρ, ?_⟩
  refine (θ_run Cert.ReferenceIdeal.defs _ _).mono (fun r h c => ?_) (Cert.ReferenceIdeal.Value.run (F := Ideal) m' ρ')
  have hq := Cert.Hist.quant_range_of_pre
    (m' ((c.tc : Thread Cert.ReferenceIdeal.nD Cert.ReferenceIdeal.τ).loc Cert.ReferenceIdeal.main_arg0))
    (by rw [hagree c]; exact hpre c)
  refine ⟨(h c).1.trans ?_, (h c).2.1.trans ?_, (h c).2.2⟩
  · rw [Cert.ReferenceIdeal.Read.val_main_v2_eq, Cert.ReferenceIdeal.RefValue.ref_q, hagree c]
  · rw [Cert.ReferenceIdeal.Read.val_main_v27_eq, Cert.ReferenceIdeal.RefValue.ref_hist _ hq, hagree c]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
